-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 60
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Dat.lean ====
/- The proof data of the two kernel regions, at the buffer contents `V` a region is entered with.
   Region 0 (the linear layer and the running column statistics): after grid point `t` the output block is the
   linear layer of input block `t`, and the two scratch accumulators hold the column sums, and sums of squares,
   of blocks `0..t` (`sAt`, by recursion on the point); the two statistics outputs are stored at the last point only.
   Region 1 (normalise, rectify, add the residual): pointwise in the block. -/
import proofs.«108163_j46162308497632_1_alg».proof.Proof.Gen.Kernel.Launch
import proofs.«108163_j46162308497632_1_alg».proof.Proof.Gen.Kernel.Skeleton
import proofs.«108163_j46162308497632_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: 5000 rows of the aggregated features, the weights, the bias row. -/
abbrev xb0 (c : Dev nD) (t : Fin cfg0.N) : Vec F S5000x128 .f32 := iblk0 V c 0 t
abbrev wb0 (c : Dev nD) (t : Fin cfg0.N) : Vec F S128x128 .f32 := iblk0 V c 1 t
abbrev bb0 (c : Dev nD) (t : Fin cfg0.N) : Vec F S1x128 .f32 := iblk0 V c 2 t

/-- What the two scratch accumulators hold after point `n`: the running column sums and sums of squares. -/
def sAt (c : Dev nD) : (n : ℕ) → n < cfg0.N → Vec F S1x128 .f32 × Vec F S1x128 .f32
  | 0, hn => (k0_pay4 (xb0 V c ⟨0, hn⟩) (wb0 V c ⟨0, hn⟩) (bb0 V c ⟨0, hn⟩) k0_pay1,
              k0_pay5 (xb0 V c ⟨0, hn⟩) (wb0 V c ⟨0, hn⟩) (bb0 V c ⟨0, hn⟩) k0_pay2)
  | n + 1, hn => (k0_pay4 (xb0 V c ⟨n + 1, hn⟩) (wb0 V c ⟨n + 1, hn⟩) (bb0 V c ⟨n + 1, hn⟩) (sAt c n (Nat.lt_of_succ_lt hn)).1,
                  k0_pay5 (xb0 V c ⟨n + 1, hn⟩) (wb0 V c ⟨n + 1, hn⟩) (bb0 V c ⟨n + 1, hn⟩) (sAt c n (Nat.lt_of_succ_lt hn)).2)

theorem sAt_zero (c : Dev nD) (t : Fin cfg0.N) (h : t.val = 0) :
    sAt V c t.val t.isLt = (k0_pay4 (xb0 V c t) (wb0 V c t) (bb0 V c t) k0_pay1, k0_pay5 (xb0 V c t) (wb0 V c t) (bb0 V c t) k0_pay2) := by
  obtain ⟨n, hn⟩ := t; cases n with
  | zero => rfl
  | succ n => exact absurd h (Nat.succ_ne_zero n)

theorem sAt_pos (c : Dev nD) (t : Fin cfg0.N) (h : t.val ≠ 0) :
    sAt V c t.val t.isLt = (k0_pay4 (xb0 V c t) (wb0 V c t) (bb0 V c t) (sAt V c (t.val - 1) (Nat.lt_of_le_of_lt (Nat.sub_le _ _) t.isLt)).1,
      k0_pay5 (xb0 V c t) (wb0 V c t) (bb0 V c t) (sAt V c (t.val - 1) (Nat.lt_of_le_of_lt (Nat.sub_le _ _) t.isLt)).2) := by
  obtain ⟨n, hn⟩ := t; cases n with
  | zero => exact absurd rfl h
  | succ n => rfl

/-- The two scratch operands as memrefs. -/
abbrev scM0 : Memref sig .tc .vmem S1x128 .f32 := Memref.whole cc0_scratch0
abbrev scM1 : Memref sig .tc .vmem S1x128 .f32 := Memref.whole cc0_scratch1

/-- The scoped buffers of the core that region 0 neither stages nor uses: the other region's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before point `n`: before the first point every scoped buffer the windows do not stage is at some
    contents; afterwards the two accumulators hold what the point before left. The generator register rides along. -/
def PhiS (c : Dev nD) : (n : ℕ) → n ≤ cfg0.N → sProp 𝕄
  | 0, _ => Pipeline.ΦA spec0 c
  | n + 1, hn => iprop(iprop(owns (c : Thread nD τ) scM0 fullShare (sAt V c n hn).1 ∗ owns (c : Thread nD τ) scM1 fullShare (sAt V c n hn).2 ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (sAt V c n hn).1 ∗ owns (c : Thread nD τ) scM1 fullShare (sAt V c n hn).2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare (sAt V c (n - 1) (by omega)).1 ∗ owns (c : Thread nD τ) scM1 fullShare (sAt V c (n - 1) (by omega)).2 ∗ rest0 c) ∗ (∃ r, prngReg c r)) := by
  cases n with
  | zero => exact absurd rfl hz
  | succ n => rfl

/-- The class invariant spelt with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA rest0; rw [scopedRest0_eq]; simp only [scM0, scM1, owns_whole]; try rfl

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (xb0 V c t) (wb0 V c t) (bb0 V c t)
    | ⟨4, _⟩ => (sAt V c t.val t.isLt).1
    | ⟨5, _⟩ => (sAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (xb0 V c t) (wb0 V c t) (bb0 V c t) := by dsimp only [dat0]
theorem after0_4 (c : Dev nD) (t : Fin cfg0.N) : (dat0 V c).after 4 t = (sAt V c t.val t.isLt).1 := by dsimp only [dat0]
theorem after0_5 (c : Dev nD) (t : Fin cfg0.N) : (dat0 V c).after 5 t = (sAt V c t.val t.isLt).2 := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-- What the entry hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S5000x128 .f32 := iblk1 V c 0 t
abbrev fb1 (c : Dev nD) (t : Fin cfg1.N) : Vec F S5000x128 .f32 := iblk1 V c 1 t
abbrev mub1 (c : Dev nD) (t : Fin cfg1.N) : Vec F S1x128 .f32 := iblk1 V c 2 t
abbrev varb1 (c : Dev nD) (t : Fin cfg1.N) : Vec F S1x128 .f32 := iblk1 V c 3 t
abbrev gab1 (c : Dev nD) (t : Fin cfg1.N) : Vec F S1x128 .f32 := iblk1 V c 4 t
abbrev beb1 (c : Dev nD) (t : Fin cfg1.N) : Vec F S1x128 .f32 := iblk1 V c 5 t

/-- Region 1's proof data on core `c`: the class invariant, nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (xb1 V c t) (mub1 V c t) (varb1 V c t) (gab1 V c t) (beb1 V c t) (fb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (xb1 V c t) (mub1 V c t) (varb1 V c t) (gab1 V c t) (beb1 V c t) (fb1 V c t) := by dsimp only [dat1]

end Cert.Kernel.Hand

end
-- ==== Proof.K.Body0.lean ====
/- The first kernel's body, run once per case of its two branches on the grid position:
   the first point (the column accumulators are reset, then added to), a middle point
   (added to), the last point (added to, then copied to the two statistics outputs). -/
import proofs.«108163_j46162308497632_1_alg».proof.Proof.Gen.Kernel.Launch
import proofs.«108163_j46162308497632_1_alg».proof.Proof.Gen.Kernel.Skeleton
import proofs.«108163_j46162308497632_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition: the grid position is 0. -/
abbrev cond0_0 (i : grid0.Coords) : Prop := (Scalar.cmpi .ne (Scalar.extui (Scalar.cmpi .eq (BitVec.ofNat 32 (i 0).val) 0#32)) 0#32) = 1#1
/-- The body's second branch condition: the grid position is 9. -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 9 :=
  (by decide +kernel : ∀ t : Fin grid0.N, cond0_1 (grid0.coords t) ↔ t.val = 9)

omit [FloatOps F] in
private theorem hz : (![0, 0] : Fin 2 → Nat) = fun _ => 0 := funext fun a => by fin_cases a <;> rfl

/-- One store through the whole-buffer rectangle, over any prior contents, reads back as its payload. -/
private theorem read_writes_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A last store through the whole-buffer rectangle reads back as its payload, whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First point: both accumulators are reset to zero and then receive the block's column sums. -/
theorem kernel0_A (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i)
    (x : Vec F S5000x128 .f32) (w : Vec F S128x128 .f32) (b : Vec F S1x128 .f32) (xi5 xi6 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ owns (c : Thread nD τ) a5 fullShare xi5 ∗ owns (c : Thread nD τ) a6 fullShare xi6 ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare xi5 ∗ owns (c : Thread nD τ) a6 fullShare xi6
            ∗ owns (c : Thread nD τ) a7 fullShare (k0_pay4 x w b k0_pay1) ∗ owns (c : Thread nD τ) a8 fullShare (k0_pay5 x w b k0_pay2)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := h1.eq_unread hf1; obtain rfl := h2.eq_unread hf2; obtain rfl := h3.eq_unread hf3
  obtain rfl := h5.eq_unread hf5; obtain rfl := h6.eq_unread hf6
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    sl_unfold_words
    rw [read_writes_cons_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz, View.readCov_unit_zero (S := S1x128) _ hz]
  iexists _; isplitr
  swap; · iexact H8
  ipureintro
  sl_unfold_words
  rw [read_writes_cons_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz, View.readCov_unit_zero (S := S1x128) _ hz]

set_option maxHeartbeats 1000000 in
/-- A middle point: the accumulators receive the block's column sums on top of what they held. -/
theorem kernel0_B (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i)
    (x : Vec F S5000x128 .f32) (w : Vec F S128x128 .f32) (b : Vec F S1x128 .f32) (xi5 xi6 s7 s8 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ owns (c : Thread nD τ) a5 fullShare xi5 ∗ owns (c : Thread nD τ) a6 fullShare xi6 ∗ owns (c : Thread nD τ) a7 fullShare s7 ∗ owns (c : Thread nD τ) a8 fullShare s8
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare xi5 ∗ owns (c : Thread nD τ) a6 fullShare xi6
            ∗ owns (c : Thread nD τ) a7 fullShare (k0_pay4 x w b s7) ∗ owns (c : Thread nD τ) a8 fullShare (k0_pay5 x w b s8)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := h1.eq_unread hf1; obtain rfl := h2.eq_unread hf2; obtain rfl := h3.eq_unread hf3
  obtain rfl := h5.eq_unread hf5; obtain rfl := h6.eq_unread hf6; obtain rfl := h7.eq_unread hf7; obtain rfl := h8.eq_unread hf8
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  iexists _; isplitr
  swap; · iexact H8
  ipureintro
  rw [read_writes_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz]

set_option maxHeartbeats 1000000 in
/-- The last point: as a middle point, and the two accumulators are copied to the statistics outputs. -/
theorem kernel0_C (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x : Vec F S5000x128 .f32) (w : Vec F S128x128 .f32) (b : Vec F S1x128 .f32) (s7 s8 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ (∃ d, owns (c : Thread nD τ) a5 fullShare d) ∗ (∃ d, owns (c : Thread nD τ) a6 fullShare d) ∗ owns (c : Thread nD τ) a7 fullShare s7 ∗ owns (c : Thread nD τ) a8 fullShare s8
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare (k0_pay4 x w b s7) ∗ owns (c : Thread nD τ) a6 fullShare (k0_pay5 x w b s8)
            ∗ owns (c : Thread nD τ) a7 fullShare (k0_pay4 x w b s7) ∗ owns (c : Thread nD τ) a8 fullShare (k0_pay5 x w b s8)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3
  obtain rfl := h7.eq_unread hf7; obtain rfl := h8.eq_unread hf8
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr
    swap; · iexact H5
    ipureintro
    sl_unfold_words
    rw [read_writes_unit_zero _ _ hz, View.readCov_unit_zero (S := S1x128) _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H6]
  · iexists _; isplitr
    swap; · iexact H6
    ipureintro
    sl_unfold_words
    rw [read_writes_unit_zero _ _ hz, View.readCov_unit_zero (S := S1x128) _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H7]
  · iexists _; isplitr
    swap; · iexact H7
    ipureintro
    sl_unfold_words
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  iexists _; isplitr
  swap; · iexact H8
  ipureintro
  sl_unfold_words
  rw [read_writes_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz]

end Cert.Kernel.Hand

end
-- ==== Proof.K.Obl0.lean ====
/- The body obligation of the first kernel region: at every grid point the body, called on the current staging buffers,
   takes the region's invariant before the point to the invariant after it and leaves each window's buffer at the
   contents the proof data name. Three cases: the first point, a middle point, the last point. -/
import proofs.«108163_j46162308497632_1_alg».proof.Proof.K.Dat
import proofs.«108163_j46162308497632_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The two statistics windows are idle, and not written back, at every point but the last; live at the last. -/
theorem idleAt0_4 : ∀ t : Fin cfg0.N, t.val ≠ 9 → cfg0.idle 4 (grid0.coords t) = true := by decide +kernel
theorem idleAt0_5 : ∀ t : Fin cfg0.N, t.val ≠ 9 → cfg0.idle 5 (grid0.coords t) = true := by decide +kernel
theorem noFlush0_4 : ∀ t : Fin cfg0.N, t.val ≠ 9 → (cfg0.win 4).flush t = false := by decide +kernel
theorem noFlush0_5 : ∀ t : Fin cfg0.N, t.val ≠ 9 → (cfg0.win 5).flush t = false := by decide +kernel
theorem liveAt0_4 : ∀ t : Fin cfg0.N, t.val = 9 → cfg0.idle 4 (grid0.coords t) = false := by decide +kernel
theorem liveAt0_5 : ∀ t : Fin cfg0.N, t.val = 9 → cfg0.idle 5 (grid0.coords t) = false := by decide +kernel

/-! ## The body at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases hz : t.val = 0
  · have hc0 : cond0_0 (grid0.coords t) := (hcond0_0 t).mpr hz
    have hc1 : ¬cond0_1 (grid0.coords t) := fun h => by have := (hcond0_1 t).mp h; omega
    have h9 : t.val ≠ 9 := by omega
    rw [Dat.leavesExact_idle (dat0 V c) 4 t (idleAt0_4 t h9) (noFlush0_4 t h9)]
    rw [Dat.leavesExact_idle (dat0 V c) 5 t (idleAt0_5 t h9) (noFlush0_5 t h9)]
    rw [sAt_zero V c t hz]
    rw [Phi0_castSucc V c t, PhiS_zero V c _ _ hz, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply (kernel0_A c (grid0.coords t) _ _ _ _ _ _ _ _ _ _ _ _ _ _ _ _ hc0 hc1 (xb0 V c t) (wb0 V c t) (bb0 V c t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · have hc0 : ¬cond0_0 (grid0.coords t) := fun h => hz ((hcond0_0 t).mp h)
      have hc1 : cond0_1 (grid0.coords t) := (hcond0_1 t).mpr h9
      rw [show (dat0 V c).leavesExact 4 t = owns (c : Thread nD τ) (st0_4 t) fullShare ((dat0 V c).after 4 t) from by
        unfold Dat.leavesExact; rw [liveAt0_4 t h9], after0_4]
      rw [show (dat0 V c).leavesExact 5 t = owns (c : Thread nD τ) (st0_5 t) fullShare ((dat0 V c).after 5 t) from by
        unfold Dat.leavesExact; rw [liveAt0_5 t h9], after0_5]
      rw [sAt_pos V c t hz]
      rw [Phi0_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_C c (grid0.coords t) _ _ _ _ _ _ _ _ _ _ _ _ _ _ _ _ hc0 hc1 (xb0 V c t) (wb0 V c t) (bb0 V c t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => hz ((hcond0_0 t).mp h)
      have hc1 : ¬cond0_1 (grid0.coords t) := fun h => h9 ((hcond0_1 t).mp h)
      rw [Dat.leavesExact_idle (dat0 V c) 4 t (idleAt0_4 t h9) (noFlush0_4 t h9)]
      rw [Dat.leavesExact_idle (dat0 V c) 5 t (idleAt0_5 t h9) (noFlush0_5 t h9)]
      rw [sAt_pos V c t hz]
      rw [Phi0_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_B c (grid0.coords t) _ _ _ _ _ _ _ _ _ _ _ _ _ _ _ _ hc0 hc1 (xb0 V c t) (wb0 V c t) (bb0 V c t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- The second kernel's body: one pointwise store of the normalised, rectified block added to the
   residual block. -/
import proofs.«108163_j46162308497632_1_alg».proof.Proof.Gen.Kernel.Launch
import proofs.«108163_j46162308497632_1_alg».proof.Proof.Gen.Kernel.Skeleton
import proofs.«108163_j46162308497632_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a whole-block access are all zero. -/
private theorem zero_offsets : (![0, 0] : Fin 2 → ℕ) = fun _ => 0 := funext fun a => by fin_cases a <;> rfl

/-- The one whole-block store covers the output block, whatever it stores. -/
private theorem cover_whole (p : Vec F S5000x128 .f32) (y : S5000x128.Idx) :
    ∃ pc ∈ ([⟨Rect.unit (s := S5000x128) ![0, 0] S5000x128.size inb_S5000x128_S5000x128_0_0, p⟩] : List (View.Piece (Elt F) S5000x128 .f32)), y ∈ pc.1.set :=
  ⟨_, List.mem_singleton_self _, View.mem_set_unit_zero zero_offsets inb_S5000x128_S5000x128_0_0 y⟩

/-- The body reads its six input blocks and leaves in the output block the one value it stores. -/
theorem kernel1 (c : Dev nD) (i : grid1.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole)
    (x : Vec F S5000x128 .f32) (f : Vec F S5000x128 .f32) (mu var ga be : Vec F S1x128 .f32) (E : Set ℕ) (K : PUnit → sProp 𝕄) :
    iprop(owns (c : Thread nD τ) a1 fullShare x ∗ owns (c : Thread nD τ) a2 fullShare f ∗ owns (c : Thread nD τ) a3 fullShare mu ∗ owns (c : Thread nD τ) a4 fullShare var
        ∗ owns (c : Thread nD τ) a5 fullShare ga ∗ owns (c : Thread nD τ) a6 fullShare be ∗ (∃ d, owns (c : Thread nD τ) a7 fullShare d)
        ∗ (iprop(owns (c : Thread nD τ) a1 fullShare x ∗ owns (c : Thread nD τ) a2 fullShare f ∗ owns (c : Thread nD τ) a3 fullShare mu ∗ owns (c : Thread nD τ) a4 fullShare var
            ∗ owns (c : Thread nD τ) a5 fullShare ga ∗ owns (c : Thread nD τ) a6 fullShare be ∗ owns (c : Thread nD τ) a7 fullShare (k1_pay1 x mu var ga be f)) -∗ K ⟨⟩))
      ⊢ wp frame (wpE (defs₀ (F := F)) Variants.none c none) E (cc1__norm_relu_residual_kernel i a1 h1 a2 h2 a3 h3 a4 h4 a5 h5 a6 h6 a7 h7) K := by
  simp only [cc1__norm_relu_residual_kernel_eq_skeleton]; unfold cc1__norm_relu_residual_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_whole _), View.canon_unit_zero zero_offsets]
  simp only [View.readAt_eq_ld, View.ld_unit_zero (S := S5000x128) zero_offsets, View.ld_unit_zero (S := S1x128) zero_offsets]

end Cert.Kernel.Hand

end
-- ==== Proof.K.Obl1.lean ====
/- The body obligation of the second kernel region: at every grid point the body reads its six input blocks and
   leaves the output block at the value the proof data name; the invariant passes through untouched. -/
import proofs.«108163_j46162308497632_1_alg».proof.Proof.K.Dat
import proofs.«108163_j46162308497632_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body

An input window's current staging buffer holds the window's block at every point, fetched there or not: where it
is not fetched the block index has not moved, and the body leaves the block in place. -/

private theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

private theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

private theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

private theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

private theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

private theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The body at a point -/

/-- At point `t` the body, given the invariant, the six input blocks in their staging buffers and the output's
    staging buffer at anything, returns the invariant, the inputs as they were and the output block at the
    normalised, rectified linear-layer block added to the residual block. -/
private theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t)
            ∗ owns (c : Thread nD τ) (st1_6 t) fullShare ((dat1 V c).after 6 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel1 c (grid1.coords t) _ _ _ _ _ _ _ _ _ _ _ _ _ _
    (xb1 V c t) (fb1 V c t) (mub1 V c t) (varb1 V c t) (gab1 V c t) (beb1 V c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1 at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Run.lean ====
/- The run of the whole program: the buffer contents at each boundary between @main's six items (three stretches of
   host operations, the first kernel region, a stretch, the second kernel region) as a fold from the launch memory; each
   region entered with its arrays read off the fold and left with its outputs at what its write-backs leave; every weakly
   fair execution ends with every unscoped buffer at the last fold, hence each argument as launched and the result at the
   second region's output. -/
import proofs.«108163_j46162308497632_1_alg».proof.Proof.K.Obl0
import proofs.«108163_j46162308497632_1_alg».proof.Proof.K.Obl1
import proofs.«108163_j46162308497632_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => m (c, b)
/-- After the first stretch (the aggregation up to the quotient). -/
abbrev U1 : Dev nD → Valuation τ sig (Elt F) := fun c => StableHlo.after hostOps0 (U0 m c)
/-- After the masking select. -/
abbrev U2 : Dev nD → Valuation τ sig (Elt F) := fun c => StableHlo.after hostOps0_1 (U1 m c)
/-- After the bias reshape: region 0's entry. -/
abbrev U3 : Dev nD → Valuation τ sig (Elt F) := fun c => StableHlo.after hostOps0_2 (U2 m c)
abbrev T3 : (c : Dev nD) → (b : Ref sig .tc) → Buf (Elt F) ((c : Thread nD τ).loc b) := fun c b => U3 m c b
/-- At region 0's exit: its arrays at what the pipeline leaves, every other buffer as entered. -/
def U4 (c : Dev nD) : Valuation τ sig (Elt F) :=
  Pipeline.withArrays spec0 c (U3 m c) fun w => (dat0 (T3 m) c).arrAt w cfg0.N
theorem U4_arr (c : Dev nD) (w : Fin cfg0.W) :
    U4 m c (Proc.devRef .tc (Pipeline.arrRef spec0 w)) = (dat0 (T3 m) c).arrAt w cfg0.N := by
  unfold U4; exact Pipeline.withArrays_arr spec0 launch0.win.arr_inj c _ _ w
theorem U4_of_ne (c : Dev nD) (b : Ref sig .tc) (hb : ∀ w, Pipeline.arrRef spec0 w ≠ b) :
    U4 m c (Proc.devRef .tc b) = U3 m c (Proc.devRef .tc b) := by
  unfold U4; exact Pipeline.withArrays_of_ne spec0 c _ _ b hb
abbrev T4 : (c : Dev nD) → (b : Ref sig .tc) → Buf (Elt F) ((c : Thread nD τ).loc b) := fun c b => U4 m c b
theorem hF0 (c : Dev nD) (w : Fin cfg0.W) : (dat0 (T3 m) c).arrAt w cfg0.N = T4 m c (Pipeline.arrRef spec0 w) :=
  (U4_arr m c w).symm
theorem hrest0 (c : Dev nD) : ∀ b, b ∉ Finset.univ.image (Pipeline.arrRef spec0) → T4 m c b = T3 m c b :=
  fun b hb => U4_of_ne m c b fun w e => hb (Finset.mem_image.mpr ⟨w, Finset.mem_univ _, e⟩)
/-- After the statistics' host arithmetic: region 1's entry. -/
abbrev U5 : Dev nD → Valuation τ sig (Elt F) := fun c => StableHlo.after hostOps1 (U4 m c)
abbrev T5 : (c : Dev nD) → (b : Ref sig .tc) → Buf (Elt F) ((c : Thread nD τ).loc b) := fun c b => U5 m c b
/-- At region 1's exit. -/
def U6 (c : Dev nD) : Valuation τ sig (Elt F) :=
  Pipeline.withArrays spec1 c (U5 m c) fun w => (dat1 (T5 m) c).arrAt w cfg1.N
theorem U6_arr (c : Dev nD) (w : Fin cfg1.W) :
    U6 m c (Proc.devRef .tc (Pipeline.arrRef spec1 w)) = (dat1 (T5 m) c).arrAt w cfg1.N := by
  unfold U6; exact Pipeline.withArrays_arr spec1 launch1.win.arr_inj c _ _ w
theorem U6_of_ne (c : Dev nD) (b : Ref sig .tc) (hb : ∀ w, Pipeline.arrRef spec1 w ≠ b) :
    U6 m c (Proc.devRef .tc b) = U5 m c (Proc.devRef .tc b) := by
  unfold U6; exact Pipeline.withArrays_of_ne spec1 c _ _ b hb
abbrev T6 : (c : Dev nD) → (b : Ref sig .tc) → Buf (Elt F) ((c : Thread nD τ).loc b) := fun c b => U6 m c b
theorem hF1 (c : Dev nD) (w : Fin cfg1.W) : (dat1 (T5 m) c).arrAt w cfg1.N = T6 m c (Pipeline.arrRef spec1 w) :=
  (U6_arr m c w).symm
theorem hrest1 (c : Dev nD) : ∀ b, b ∉ Finset.univ.image (Pipeline.arrRef spec1) → T6 m c b = T5 m c b :=
  fun b hb => U6_of_ne m c b fun w e => hb (Finset.mem_image.mpr ⟨w, Finset.mem_univ _, e⟩)

/-! ## No item writes an argument -/

theorem U6_main_arg0 (c : Dev nD) : U6 m c (Proc.devRef .tc main_arg0) = m ((c : Thread nD τ).loc main_arg0) :=
  calc U6 m c (Proc.devRef .tc main_arg0)
    _ = U5 m c (Proc.devRef .tc main_arg0) := (U6_arr m c 1).trans (((dat1 (T5 m) c).arrAt_in 1 rfl _).trans (A_eq1 (T5 m) c 1))
    _ = U4 m c (Proc.devRef .tc main_arg0) := StableHlo.after_of_writes_sub hostOps1 _ hostOps1_writes (by decide)
    _ = U3 m c (Proc.devRef .tc main_arg0) := U4_of_ne m c main_arg0 (by decide)
    _ = U2 m c (Proc.devRef .tc main_arg0) := StableHlo.after_of_writes_sub hostOps0_2 _ hostOps0_2_writes (by decide)
    _ = U1 m c (Proc.devRef .tc main_arg0) := StableHlo.after_of_writes_sub hostOps0_1 _ hostOps0_1_writes (by decide)
    _ = U0 m c (Proc.devRef .tc main_arg0) := StableHlo.after_of_writes_sub hostOps0 _ hostOps0_writes (by decide)
    _ = m ((c : Thread nD τ).loc main_arg0) := rfl

theorem U6_main_arg1 (c : Dev nD) : U6 m c (Proc.devRef .tc main_arg1) = m ((c : Thread nD τ).loc main_arg1) :=
  calc U6 m c (Proc.devRef .tc main_arg1)
    _ = U5 m c (Proc.devRef .tc main_arg1) := U6_of_ne m c main_arg1 (by decide)
    _ = U4 m c (Proc.devRef .tc main_arg1) := StableHlo.after_of_writes_sub hostOps1 _ hostOps1_writes (by decide)
    _ = U3 m c (Proc.devRef .tc main_arg1) := (U4_arr m c 1).trans (((dat0 (T3 m) c).arrAt_in 1 rfl _).trans (A_eq0 (T3 m) c 1))
    _ = U2 m c (Proc.devRef .tc main_arg1) := StableHlo.after_of_writes_sub hostOps0_2 _ hostOps0_2_writes (by decide)
    _ = U1 m c (Proc.devRef .tc main_arg1) := StableHlo.after_of_writes_sub hostOps0_1 _ hostOps0_1_writes (by decide)
    _ = U0 m c (Proc.devRef .tc main_arg1) := StableHlo.after_of_writes_sub hostOps0 _ hostOps0_writes (by decide)
    _ = m ((c : Thread nD τ).loc main_arg1) := rfl

theorem U6_main_arg2 (c : Dev nD) : U6 m c (Proc.devRef .tc main_arg2) = m ((c : Thread nD τ).loc main_arg2) :=
  calc U6 m c (Proc.devRef .tc main_arg2)
    _ = U5 m c (Proc.devRef .tc main_arg2) := U6_of_ne m c main_arg2 (by decide)
    _ = U4 m c (Proc.devRef .tc main_arg2) := StableHlo.after_of_writes_sub hostOps1 _ hostOps1_writes (by decide)
    _ = U3 m c (Proc.devRef .tc main_arg2) := U4_of_ne m c main_arg2 (by decide)
    _ = U2 m c (Proc.devRef .tc main_arg2) := StableHlo.after_of_writes_sub hostOps0_2 _ hostOps0_2_writes (by decide)
    _ = U1 m c (Proc.devRef .tc main_arg2) := StableHlo.after_of_writes_sub hostOps0_1 _ hostOps0_1_writes (by decide)
    _ = U0 m c (Proc.devRef .tc main_arg2) := StableHlo.after_of_writes_sub hostOps0 _ hostOps0_writes (by decide)
    _ = m ((c : Thread nD τ).loc main_arg2) := rfl

theorem U6_main_arg3 (c : Dev nD) : U6 m c (Proc.devRef .tc main_arg3) = m ((c : Thread nD τ).loc main_arg3) :=
  calc U6 m c (Proc.devRef .tc main_arg3)
    _ = U5 m c (Proc.devRef .tc main_arg3) := U6_of_ne m c main_arg3 (by decide)
    _ = U4 m c (Proc.devRef .tc main_arg3) := StableHlo.after_of_writes_sub hostOps1 _ hostOps1_writes (by decide)
    _ = U3 m c (Proc.devRef .tc main_arg3) := U4_of_ne m c main_arg3 (by decide)
    _ = U2 m c (Proc.devRef .tc main_arg3) := StableHlo.after_of_writes_sub hostOps0_2 _ hostOps0_2_writes (by decide)
    _ = U1 m c (Proc.devRef .tc main_arg3) := StableHlo.after_of_writes_sub hostOps0_1 _ hostOps0_1_writes (by decide)
    _ = U0 m c (Proc.devRef .tc main_arg3) := StableHlo.after_of_writes_sub hostOps0 _ hostOps0_writes (by decide)
    _ = m ((c : Thread nD τ).loc main_arg3) := rfl

theorem U6_main_arg4 (c : Dev nD) : U6 m c (Proc.devRef .tc main_arg4) = m ((c : Thread nD τ).loc main_arg4) :=
  calc U6 m c (Proc.devRef .tc main_arg4)
    _ = U5 m c (Proc.devRef .tc main_arg4) := U6_of_ne m c main_arg4 (by decide)
    _ = U4 m c (Proc.devRef .tc main_arg4) := StableHlo.after_of_writes_sub hostOps1 _ hostOps1_writes (by decide)
    _ = U3 m c (Proc.devRef .tc main_arg4) := U4_of_ne m c main_arg4 (by decide)
    _ = U2 m c (Proc.devRef .tc main_arg4) := StableHlo.after_of_writes_sub hostOps0_2 _ hostOps0_2_writes (by decide)
    _ = U1 m c (Proc.devRef .tc main_arg4) := StableHlo.after_of_writes_sub hostOps0_1 _ hostOps0_1_writes (by decide)
    _ = U0 m c (Proc.devRef .tc main_arg4) := StableHlo.after_of_writes_sub hostOps0 _ hostOps0_writes (by decide)
    _ = m ((c : Thread nD τ).loc main_arg4) := rfl

theorem U6_main_arg5 (c : Dev nD) : U6 m c (Proc.devRef .tc main_arg5) = m ((c : Thread nD τ).loc main_arg5) :=
  calc U6 m c (Proc.devRef .tc main_arg5)
    _ = U5 m c (Proc.devRef .tc main_arg5) := U6_of_ne m c main_arg5 (by decide)
    _ = U4 m c (Proc.devRef .tc main_arg5) := StableHlo.after_of_writes_sub hostOps1 _ hostOps1_writes (by decide)
    _ = U3 m c (Proc.devRef .tc main_arg5) := U4_of_ne m c main_arg5 (by decide)
    _ = U2 m c (Proc.devRef .tc main_arg5) := StableHlo.after_of_writes_sub hostOps0_2 _ hostOps0_2_writes (by decide)
    _ = U1 m c (Proc.devRef .tc main_arg5) := StableHlo.after_of_writes_sub hostOps0_1 _ hostOps0_1_writes (by decide)
    _ = U0 m c (Proc.devRef .tc main_arg5) := StableHlo.after_of_writes_sub hostOps0 _ hostOps0_writes (by decide)
    _ = m ((c : Thread nD τ).loc main_arg5) := rfl

theorem U6_main_arg6 (c : Dev nD) : U6 m c (Proc.devRef .tc main_arg6) = m ((c : Thread nD τ).loc main_arg6) :=
  calc U6 m c (Proc.devRef .tc main_arg6)
    _ = U5 m c (Proc.devRef .tc main_arg6) := U6_of_ne m c main_arg6 (by decide)
    _ = U4 m c (Proc.devRef .tc main_arg6) := StableHlo.after_of_writes_sub hostOps1 _ hostOps1_writes (by decide)
    _ = U3 m c (Proc.devRef .tc main_arg6) := U4_of_ne m c main_arg6 (by decide)
    _ = U2 m c (Proc.devRef .tc main_arg6) := StableHlo.after_of_writes_sub hostOps0_2 _ hostOps0_2_writes (by decide)
    _ = U1 m c (Proc.devRef .tc main_arg6) := StableHlo.after_of_writes_sub hostOps0_1 _ hostOps0_1_writes (by decide)
    _ = U0 m c (Proc.devRef .tc main_arg6) := StableHlo.after_of_writes_sub hostOps0 _ hostOps0_writes (by decide)
    _ = m ((c : Thread nD τ).loc main_arg6) := rfl

/-- The result buffer at the end is the second region's output array as its write-backs leave it. -/
theorem U6_main_v37 (c : Dev nD) : U6 m c (Proc.devRef .tc main_v37) = (dat1 (T5 m) c).arrAt 6 cfg1.N :=
  U6_arr m c 6

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (T3 m) c
  | ⟨1, _⟩ => fun c => dat1 (T5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U6 m c) ∗ ∃ r, prngReg c r)

/-! ## The regions as segments -/

set_option backward.isDefEq.respectTransparency.types false in
/-- Region 0 as a segment: entered with every unscoped buffer at `U3`, left with them at `U4`; its arrays are split out of
    the unscoped buffers at entry and put back at exit; the generator register passes through the invariant; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (T3 m) c)
    unfold Pipeline.ΦA
    iintro ⟨Hp, -, Hr⟩
    isplitl [Hr]; · iexact Hr
    iexact Hp
  hout c := by
    rw [Pipeline.ownSems0_none]
    refine BIBase.Entails.trans (hout0 (T3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `U5`, left with them at `U6`; its arrays are split out of
    the unscoped buffers at entry and put back at exit; the generator register passes through the invariant; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final state holds every unscoped buffer at the last fold `U6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-- THE FRAME and the result together: every argument ends as launched, and the result buffer ends at the second region's
    output array as its write-backs leave it. -/
theorem run_value : θ_run defs (onTc (τ := τ) (main (F := F))) ⟨m, fun _ => 0, ρ⟩ (fun r => ∀ c : Dev nD,
      r.2.mem ((c.tc : Thread nD τ).loc main_v37) = (dat1 (T5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v37 (by decide))).trans (U6_main_v37 m c),
     (h c _ (mem_uc main_arg0 (by decide))).trans (U6_main_arg0 m c),
     (h c _ (mem_uc main_arg1 (by decide))).trans (U6_main_arg1 m c),
     (h c _ (mem_uc main_arg2 (by decide))).trans (U6_main_arg2 m c),
     (h c _ (mem_uc main_arg3 (by decide))).trans (U6_main_arg3 m c),
     (h c _ (mem_uc main_arg4 (by decide))).trans (U6_main_arg4 m c),
     (h c _ (mem_uc main_arg5 (by decide))).trans (U6_main_arg5 m c),
     (h c _ (mem_uc main_arg6 (by decide))).trans (U6_main_arg6 m c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c => (h c).2) (run_value m ρ)

end Cert.Kernel.Hand

end
-- ==== Proof.KI.Dat.lean ====
/- The proof data of the two kernel regions, at the buffer contents `V` a region is entered with.
   Region 0 (the linear layer and the running column statistics): after grid point `t` the output block is the
   linear layer of input block `t`, and the two scratch accumulators hold the column sums, and sums of squares,
   of blocks `0..t` (`sAt`, by recursion on the point); the two statistics outputs are stored at the last point only.
   Region 1 (normalise, rectify, add the residual): pointwise in the block. -/
import proofs.«108163_j46162308497632_1_alg».proof.Proof.Gen.KernelIdeal.Launch
import proofs.«108163_j46162308497632_1_alg».proof.Proof.Gen.KernelIdeal.Skeleton
import proofs.«108163_j46162308497632_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: 5000 rows of the aggregated features, the weights, the bias row. -/
abbrev xb0 (c : Dev nD) (t : Fin cfg0.N) : Vec F S5000x128 .f32 := iblk0 V c 0 t
abbrev wb0 (c : Dev nD) (t : Fin cfg0.N) : Vec F S128x128 .f32 := iblk0 V c 1 t
abbrev bb0 (c : Dev nD) (t : Fin cfg0.N) : Vec F S1x128 .f32 := iblk0 V c 2 t

/-- What the two scratch accumulators hold after point `n`: the running column sums and sums of squares. -/
def sAt (c : Dev nD) : (n : ℕ) → n < cfg0.N → Vec F S1x128 .f32 × Vec F S1x128 .f32
  | 0, hn => (k0_pay4 (xb0 V c ⟨0, hn⟩) (wb0 V c ⟨0, hn⟩) (bb0 V c ⟨0, hn⟩) k0_pay1,
              k0_pay5 (xb0 V c ⟨0, hn⟩) (wb0 V c ⟨0, hn⟩) (bb0 V c ⟨0, hn⟩) k0_pay2)
  | n + 1, hn => (k0_pay4 (xb0 V c ⟨n + 1, hn⟩) (wb0 V c ⟨n + 1, hn⟩) (bb0 V c ⟨n + 1, hn⟩) (sAt c n (Nat.lt_of_succ_lt hn)).1,
                  k0_pay5 (xb0 V c ⟨n + 1, hn⟩) (wb0 V c ⟨n + 1, hn⟩) (bb0 V c ⟨n + 1, hn⟩) (sAt c n (Nat.lt_of_succ_lt hn)).2)

theorem sAt_zero (c : Dev nD) (t : Fin cfg0.N) (h : t.val = 0) :
    sAt V c t.val t.isLt = (k0_pay4 (xb0 V c t) (wb0 V c t) (bb0 V c t) k0_pay1, k0_pay5 (xb0 V c t) (wb0 V c t) (bb0 V c t) k0_pay2) := by
  obtain ⟨n, hn⟩ := t; cases n with
  | zero => rfl
  | succ n => exact absurd h (Nat.succ_ne_zero n)

theorem sAt_pos (c : Dev nD) (t : Fin cfg0.N) (h : t.val ≠ 0) :
    sAt V c t.val t.isLt = (k0_pay4 (xb0 V c t) (wb0 V c t) (bb0 V c t) (sAt V c (t.val - 1) (Nat.lt_of_le_of_lt (Nat.sub_le _ _) t.isLt)).1,
      k0_pay5 (xb0 V c t) (wb0 V c t) (bb0 V c t) (sAt V c (t.val - 1) (Nat.lt_of_le_of_lt (Nat.sub_le _ _) t.isLt)).2) := by
  obtain ⟨n, hn⟩ := t; cases n with
  | zero => exact absurd rfl h
  | succ n => rfl

/-- The two scratch operands as memrefs. -/
abbrev scM0 : Memref sig .tc .vmem S1x128 .f32 := Memref.whole cc0_scratch0
abbrev scM1 : Memref sig .tc .vmem S1x128 .f32 := Memref.whole cc0_scratch1

/-- The scoped buffers of the core that region 0 neither stages nor uses: the other region's staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The region's invariant before point `n`: before the first point every scoped buffer the windows do not stage is at some
    contents; afterwards the two accumulators hold what the point before left. The generator register rides along. -/
def PhiS (c : Dev nD) : (n : ℕ) → n ≤ cfg0.N → sProp 𝕄
  | 0, _ => Pipeline.ΦA spec0 c
  | n + 1, hn => iprop(iprop(owns (c : Thread nD τ) scM0 fullShare (sAt V c n hn).1 ∗ owns (c : Thread nD τ) scM1 fullShare (sAt V c n hn).2 ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (sAt V c n hn).1 ∗ owns (c : Thread nD τ) scM1 fullShare (sAt V c n hn).2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare (sAt V c (n - 1) (by omega)).1 ∗ owns (c : Thread nD τ) scM1 fullShare (sAt V c (n - 1) (by omega)).2 ∗ rest0 c) ∗ (∃ r, prngReg c r)) := by
  cases n with
  | zero => exact absurd rfl hz
  | succ n => rfl

/-- The class invariant spelt with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 c) ∗ (∃ r, prngReg c r)) := by
  unfold Pipeline.ΦA rest0; rw [scopedRest0_eq]; simp only [scM0, scM1, owns_whole]; try rfl

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (xb0 V c t) (wb0 V c t) (bb0 V c t)
    | ⟨4, _⟩ => (sAt V c t.val t.isLt).1
    | ⟨5, _⟩ => (sAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (xb0 V c t) (wb0 V c t) (bb0 V c t) := by dsimp only [dat0]
theorem after0_4 (c : Dev nD) (t : Fin cfg0.N) : (dat0 V c).after 4 t = (sAt V c t.val t.isLt).1 := by dsimp only [dat0]
theorem after0_5 (c : Dev nD) (t : Fin cfg0.N) : (dat0 V c).after 5 t = (sAt V c t.val t.isLt).2 := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-- What the entry hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S5000x128 .f32 := iblk1 V c 0 t
abbrev fb1 (c : Dev nD) (t : Fin cfg1.N) : Vec F S5000x128 .f32 := iblk1 V c 1 t
abbrev mub1 (c : Dev nD) (t : Fin cfg1.N) : Vec F S1x128 .f32 := iblk1 V c 2 t
abbrev varb1 (c : Dev nD) (t : Fin cfg1.N) : Vec F S1x128 .f32 := iblk1 V c 3 t
abbrev gab1 (c : Dev nD) (t : Fin cfg1.N) : Vec F S1x128 .f32 := iblk1 V c 4 t
abbrev beb1 (c : Dev nD) (t : Fin cfg1.N) : Vec F S1x128 .f32 := iblk1 V c 5 t

/-- Region 1's proof data on core `c`: the class invariant, nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (xb1 V c t) (mub1 V c t) (varb1 V c t) (gab1 V c t) (beb1 V c t) (fb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (xb1 V c t) (mub1 V c t) (varb1 V c t) (gab1 V c t) (beb1 V c t) (fb1 V c t) := by dsimp only [dat1]

end Cert.KernelIdeal.Hand

end
-- ==== Proof.KI.Body0.lean ====
/- The first kernel's body, run once per case of its two branches on the grid position:
   the first point (the column accumulators are reset, then added to), a middle point
   (added to), the last point (added to, then copied to the two statistics outputs). -/
import proofs.«108163_j46162308497632_1_alg».proof.Proof.Gen.KernelIdeal.Launch
import proofs.«108163_j46162308497632_1_alg».proof.Proof.Gen.KernelIdeal.Skeleton
import proofs.«108163_j46162308497632_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition: the grid position is 0. -/
abbrev cond0_0 (i : grid0.Coords) : Prop := (Scalar.cmpi .ne (Scalar.extui (Scalar.cmpi .eq (BitVec.ofNat 32 (i 0).val) 0#32)) 0#32) = 1#1
/-- The body's second branch condition: the grid position is 9. -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 9 :=
  (by decide +kernel : ∀ t : Fin grid0.N, cond0_1 (grid0.coords t) ↔ t.val = 9)

omit [FloatOps F] in
private theorem hz : (![0, 0] : Fin 2 → Nat) = fun _ => 0 := funext fun a => by fin_cases a <;> rfl

/-- One store through the whole-buffer rectangle, over any prior contents, reads back as its payload. -/
private theorem read_writes_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A last store through the whole-buffer rectangle reads back as its payload, whatever was stored before. -/
private theorem read_writes_cons_unit_zero {Val : EltTy → Type} [∀ e, Nonempty (Val e)] {sg : RefSig} {κ : Kind} {sp : Space}
    {S : Shape} {e : EltTy} (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First point: both accumulators are reset to zero and then receive the block's column sums. -/
theorem kernel0_A (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : cond0_0 i) (hc1 : ¬cond0_1 i)
    (x : Vec F S5000x128 .f32) (w : Vec F S128x128 .f32) (b : Vec F S1x128 .f32) (xi5 xi6 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ owns (c : Thread nD τ) a5 fullShare xi5 ∗ owns (c : Thread nD τ) a6 fullShare xi6 ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare xi5 ∗ owns (c : Thread nD τ) a6 fullShare xi6
            ∗ owns (c : Thread nD τ) a7 fullShare (k0_pay4 x w b k0_pay1) ∗ owns (c : Thread nD τ) a8 fullShare (k0_pay5 x w b k0_pay2)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := h1.eq_unread hf1; obtain rfl := h2.eq_unread hf2; obtain rfl := h3.eq_unread hf3
  obtain rfl := h5.eq_unread hf5; obtain rfl := h6.eq_unread hf6
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    sl_unfold_words
    rw [read_writes_cons_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz, View.readCov_unit_zero (S := S1x128) _ hz]
  iexists _; isplitr
  swap; · iexact H8
  ipureintro
  sl_unfold_words
  rw [read_writes_cons_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz, View.readCov_unit_zero (S := S1x128) _ hz]

set_option maxHeartbeats 1000000 in
/-- A middle point: the accumulators receive the block's column sums on top of what they held. -/
theorem kernel0_B (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : ¬cond0_1 i)
    (x : Vec F S5000x128 .f32) (w : Vec F S128x128 .f32) (b : Vec F S1x128 .f32) (xi5 xi6 s7 s8 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ owns (c : Thread nD τ) a5 fullShare xi5 ∗ owns (c : Thread nD τ) a6 fullShare xi6 ∗ owns (c : Thread nD τ) a7 fullShare s7 ∗ owns (c : Thread nD τ) a8 fullShare s8
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare xi5 ∗ owns (c : Thread nD τ) a6 fullShare xi6
            ∗ owns (c : Thread nD τ) a7 fullShare (k0_pay4 x w b s7) ∗ owns (c : Thread nD τ) a8 fullShare (k0_pay5 x w b s8)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := h1.eq_unread hf1; obtain rfl := h2.eq_unread hf2; obtain rfl := h3.eq_unread hf3
  obtain rfl := h5.eq_unread hf5; obtain rfl := h6.eq_unread hf6; obtain rfl := h7.eq_unread hf7; obtain rfl := h8.eq_unread hf8
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  iexists _; isplitr
  swap; · iexact H8
  ipureintro
  rw [read_writes_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz]

set_option maxHeartbeats 1000000 in
/-- The last point: as a middle point, and the two accumulators are copied to the statistics outputs. -/
theorem kernel0_C (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (a8 : Memref sig .tc .vmem S1x128 .f32) (h8 : a8.IsWhole) (hc0 : ¬cond0_0 i) (hc1 : cond0_1 i)
    (x : Vec F S5000x128 .f32) (w : Vec F S128x128 .f32) (b : Vec F S1x128 .f32) (s7 s8 : Vec F S1x128 .f32) (E : Set ℕ) (K : PUnit → sProp 𝕄) :
    iprop(owns (c : Thread nD τ) a1 fullShare x ∗ owns (c : Thread nD τ) a2 fullShare w ∗ owns (c : Thread nD τ) a3 fullShare b ∗ (∃ d, owns (c : Thread nD τ) a4 fullShare d)
        ∗ (∃ d, owns (c : Thread nD τ) a5 fullShare d) ∗ (∃ d, owns (c : Thread nD τ) a6 fullShare d) ∗ owns (c : Thread nD τ) a7 fullShare s7 ∗ owns (c : Thread nD τ) a8 fullShare s8
        ∗ (iprop(owns (c : Thread nD τ) a1 fullShare x ∗ owns (c : Thread nD τ) a2 fullShare w ∗ owns (c : Thread nD τ) a3 fullShare b ∗ owns (c : Thread nD τ) a4 fullShare (k0_pay3 x w b)
            ∗ owns (c : Thread nD τ) a5 fullShare (k0_pay4 x w b s7) ∗ owns (c : Thread nD τ) a6 fullShare (k0_pay5 x w b s8)
            ∗ owns (c : Thread nD τ) a7 fullShare (k0_pay4 x w b s7) ∗ owns (c : Thread nD τ) a8 fullShare (k0_pay5 x w b s8)) -∗ K ⟨⟩))
      ⊢ wp frame (wpE (defs₀ (F := F)) Variants.none c none) E (cc0__linear_stats_kernel i a1 h1 a2 h2 a3 h3 a4 h4 a5 h5 a6 h6 a7 h7 a8 h8) K := by
  simp only [cc0__linear_stats_kernel_eq_skeleton]; unfold cc0__linear_stats_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := h1.eq_unread hf1; obtain rfl := h2.eq_unread hf2; obtain rfl := h3.eq_unread hf3
  obtain rfl := h7.eq_unread hf7; obtain rfl := h8.eq_unread hf8
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H5]
  · iexists _; isplitr
    swap; · iexact H5
    ipureintro
    sl_unfold_words
    rw [read_writes_unit_zero _ _ hz, View.readCov_unit_zero (S := S1x128) _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H6]
  · iexists _; isplitr
    swap; · iexact H6
    ipureintro
    sl_unfold_words
    rw [read_writes_unit_zero _ _ hz, View.readCov_unit_zero (S := S1x128) _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  isplitl [H7]
  · iexists _; isplitr
    swap; · iexact H7
    ipureintro
    sl_unfold_words
    rw [read_writes_unit_zero _ _ hz]
    simp only [View.readAt_eq_ld, h1.read_unread, h2.read_unread, h3.read_unread, h7.read_unread, h8.read_unread, View.ld_unit_zero (S := S5000x128) hz, View.ld_unit_zero (S := S128x128) hz, View.ld_unit_zero (S := S1x128) hz]
  iexists _; isplitr
  swap; · iexact H8
  ipureintro
  sl_unfold_words
  rw [read_writes_unit_zero _ _ hz]
  simp only [View.readAt_eq_ld, h1.read_unread, h2.read_unread, h3.read_unread, h7.read_unread, h8.read_unread, View.ld_unit_zero (S := S5000x128) hz, View.ld_unit_zero (S := S128x128) hz, View.ld_unit_zero (S := S1x128) hz]

end Cert.KernelIdeal.Hand

end
-- ==== Proof.KI.Obl0.lean ====
/- The body obligation of the first kernel region: at every grid point the body, called on the current staging buffers,
   takes the region's invariant before the point to the invariant after it and leaves each window's buffer at the
   contents the proof data name. Three cases: the first point, a middle point, the last point. -/
import proofs.«108163_j46162308497632_1_alg».proof.Proof.KI.Dat
import proofs.«108163_j46162308497632_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The two statistics windows are idle, and not written back, at every point but the last; live at the last. -/
theorem idleAt0_4 : ∀ t : Fin cfg0.N, t.val ≠ 9 → cfg0.idle 4 (grid0.coords t) = true := by decide +kernel
theorem idleAt0_5 : ∀ t : Fin cfg0.N, t.val ≠ 9 → cfg0.idle 5 (grid0.coords t) = true := by decide +kernel
theorem noFlush0_4 : ∀ t : Fin cfg0.N, t.val ≠ 9 → (cfg0.win 4).flush t = false := by decide +kernel
theorem noFlush0_5 : ∀ t : Fin cfg0.N, t.val ≠ 9 → (cfg0.win 5).flush t = false := by decide +kernel
theorem liveAt0_4 : ∀ t : Fin cfg0.N, t.val = 9 → cfg0.idle 4 (grid0.coords t) = false := by decide +kernel
theorem liveAt0_5 : ∀ t : Fin cfg0.N, t.val = 9 → cfg0.idle 5 (grid0.coords t) = false := by decide +kernel

/-! ## The body at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases hz : t.val = 0
  · have hc0 : cond0_0 (grid0.coords t) := (hcond0_0 t).mpr hz
    have hc1 : ¬cond0_1 (grid0.coords t) := fun h => by have := (hcond0_1 t).mp h; omega
    have h9 : t.val ≠ 9 := by omega
    rw [Dat.leavesExact_idle (dat0 V c) 4 t (idleAt0_4 t h9) (noFlush0_4 t h9)]
    rw [Dat.leavesExact_idle (dat0 V c) 5 t (idleAt0_5 t h9) (noFlush0_5 t h9)]
    rw [sAt_zero V c t hz]
    rw [Phi0_castSucc V c t, PhiS_zero V c _ _ hz, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply (kernel0_A c (grid0.coords t) _ _ _ _ _ _ _ _ _ _ _ _ _ _ _ _ hc0 hc1 (xb0 V c t) (wb0 V c t) (bb0 V c t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h9 : t.val = 9
    · have hc0 : ¬cond0_0 (grid0.coords t) := fun h => hz ((hcond0_0 t).mp h)
      have hc1 : cond0_1 (grid0.coords t) := (hcond0_1 t).mpr h9
      rw [show (dat0 V c).leavesExact 4 t = owns (c : Thread nD τ) (st0_4 t) fullShare ((dat0 V c).after 4 t) from by
        unfold Dat.leavesExact; rw [liveAt0_4 t h9], after0_4]
      rw [show (dat0 V c).leavesExact 5 t = owns (c : Thread nD τ) (st0_5 t) fullShare ((dat0 V c).after 5 t) from by
        unfold Dat.leavesExact; rw [liveAt0_5 t h9], after0_5]
      rw [sAt_pos V c t hz]
      rw [Phi0_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_C c (grid0.coords t) _ _ _ _ _ _ _ _ _ _ _ _ _ _ _ _ hc0 hc1 (xb0 V c t) (wb0 V c t) (bb0 V c t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond0_0 (grid0.coords t) := fun h => hz ((hcond0_0 t).mp h)
      have hc1 : ¬cond0_1 (grid0.coords t) := fun h => h9 ((hcond0_1 t).mp h)
      rw [Dat.leavesExact_idle (dat0 V c) 4 t (idleAt0_4 t h9) (noFlush0_4 t h9)]
      rw [Dat.leavesExact_idle (dat0 V c) 5 t (idleAt0_5 t h9) (noFlush0_5 t h9)]
      rw [sAt_pos V c t hz]
      rw [Phi0_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_B c (grid0.coords t) _ _ _ _ _ _ _ _ _ _ _ _ _ _ _ _ hc0 hc1 (xb0 V c t) (wb0 V c t) (bb0 V c t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- The second kernel's body: one pointwise store of the normalised, rectified block added to the
   residual block. -/
import proofs.«108163_j46162308497632_1_alg».proof.Proof.Gen.KernelIdeal.Launch
import proofs.«108163_j46162308497632_1_alg».proof.Proof.Gen.KernelIdeal.Skeleton
import proofs.«108163_j46162308497632_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a whole-block access are all zero. -/
private theorem zero_offsets : (![0, 0] : Fin 2 → ℕ) = fun _ => 0 := funext fun a => by fin_cases a <;> rfl

/-- The one whole-block store covers the output block, whatever it stores. -/
private theorem cover_whole (p : Vec F S5000x128 .f32) (y : S5000x128.Idx) :
    ∃ pc ∈ ([⟨Rect.unit (s := S5000x128) ![0, 0] S5000x128.size inb_S5000x128_S5000x128_0_0, p⟩] : List (View.Piece (Elt F) S5000x128 .f32)), y ∈ pc.1.set :=
  ⟨_, List.mem_singleton_self _, View.mem_set_unit_zero zero_offsets inb_S5000x128_S5000x128_0_0 y⟩

/-- The body reads its six input blocks and leaves in the output block the one value it stores. -/
theorem kernel1 (c : Dev nD) (i : grid1.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S1x128 .f32) (h6 : a6.IsWhole) (a7 : Memref sig .tc .vmem S5000x128 .f32) (h7 : a7.IsWhole)
    (x : Vec F S5000x128 .f32) (f : Vec F S5000x128 .f32) (mu var ga be : Vec F S1x128 .f32) (E : Set ℕ) (K : PUnit → sProp 𝕄) :
    iprop(owns (c : Thread nD τ) a1 fullShare x ∗ owns (c : Thread nD τ) a2 fullShare f ∗ owns (c : Thread nD τ) a3 fullShare mu ∗ owns (c : Thread nD τ) a4 fullShare var
        ∗ owns (c : Thread nD τ) a5 fullShare ga ∗ owns (c : Thread nD τ) a6 fullShare be ∗ (∃ d, owns (c : Thread nD τ) a7 fullShare d)
        ∗ (iprop(owns (c : Thread nD τ) a1 fullShare x ∗ owns (c : Thread nD τ) a2 fullShare f ∗ owns (c : Thread nD τ) a3 fullShare mu ∗ owns (c : Thread nD τ) a4 fullShare var
            ∗ owns (c : Thread nD τ) a5 fullShare ga ∗ owns (c : Thread nD τ) a6 fullShare be ∗ owns (c : Thread nD τ) a7 fullShare (k1_pay1 x mu var ga be f)) -∗ K ⟨⟩))
      ⊢ wp frame (wpE (defs₀ (F := F)) Variants.none c none) E (cc1__norm_relu_residual_kernel i a1 h1 a2 h2 a3 h3 a4 h4 a5 h5 a6 h6 a7 h7) K := by
  simp only [cc1__norm_relu_residual_kernel_eq_skeleton]; unfold cc1__norm_relu_residual_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_whole _), View.canon_unit_zero zero_offsets]
  simp only [View.readAt_eq_ld, View.ld_unit_zero (S := S5000x128) zero_offsets, View.ld_unit_zero (S := S1x128) zero_offsets]

end Cert.KernelIdeal.Hand

end
-- ==== Proof.KI.Obl1.lean ====
/- The body obligation of the second kernel region: at every grid point the body reads its six input blocks and
   leaves the output block at the value the proof data name; the invariant passes through untouched. -/
import proofs.«108163_j46162308497632_1_alg».proof.Proof.KI.Dat
import proofs.«108163_j46162308497632_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body

An input window's current staging buffer holds the window's block at every point, fetched there or not: where it
is not fetched the block index has not moved, and the body leaves the block in place. -/

private theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

private theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

private theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

private theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

private theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

private theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## The body at a point -/

/-- At point `t` the body, given the invariant, the six input blocks in their staging buffers and the output's
    staging buffer at anything, returns the invariant, the inputs as they were and the output block at the
    normalised, rectified linear-layer block added to the residual block. -/
private theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)
            ∗ owns (c : Thread nD τ) (st1_4 t) fullShare ((dat1 V c).after 4 t)
            ∗ owns (c : Thread nD τ) (st1_5 t) fullShare ((dat1 V c).after 5 t)
            ∗ owns (c : Thread nD τ) (st1_6 t) fullShare ((dat1 V c).after 6 t))) := by
  unfold bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel1 c (grid1.coords t) _ _ _ _ _ _ _ _ _ _ _ _ _ _
    (xb1 V c t) (fb1 V c t) (mub1 V c t) (varb1 V c t) (gab1 V c t) (beb1 V c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1 at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Run.lean ====
/- The run of the whole program: the buffer contents at each boundary between @main's six items (three stretches of
   host operations, the first kernel region, a stretch, the second kernel region) as a fold from the launch memory; each
   region entered with its arrays read off the fold and left with its outputs at what its write-backs leave; every weakly
   fair execution ends with every unscoped buffer at the last fold, hence each argument as launched and the result at the
   second region's output. -/
import proofs.«108163_j46162308497632_1_alg».proof.Proof.KI.Obl0
import proofs.«108163_j46162308497632_1_alg».proof.Proof.KI.Obl1
import proofs.«108163_j46162308497632_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => m (c, b)
/-- After the first stretch (the aggregation up to the quotient). -/
abbrev U1 : Dev nD → Valuation τ sig (Elt F) := fun c => StableHlo.after hostOps0 (U0 m c)
/-- After the masking select. -/
abbrev U2 : Dev nD → Valuation τ sig (Elt F) := fun c => StableHlo.after hostOps0_1 (U1 m c)
/-- After the bias reshape: region 0's entry. -/
abbrev U3 : Dev nD → Valuation τ sig (Elt F) := fun c => StableHlo.after hostOps0_2 (U2 m c)
abbrev T3 : (c : Dev nD) → (b : Ref sig .tc) → Buf (Elt F) ((c : Thread nD τ).loc b) := fun c b => U3 m c b
/-- At region 0's exit: its arrays at what the pipeline leaves, every other buffer as entered. -/
def U4 (c : Dev nD) : Valuation τ sig (Elt F) :=
  Pipeline.withArrays spec0 c (U3 m c) fun w => (dat0 (T3 m) c).arrAt w cfg0.N
theorem U4_arr (c : Dev nD) (w : Fin cfg0.W) :
    U4 m c (Proc.devRef .tc (Pipeline.arrRef spec0 w)) = (dat0 (T3 m) c).arrAt w cfg0.N := by
  unfold U4; exact Pipeline.withArrays_arr spec0 launch0.win.arr_inj c _ _ w
theorem U4_of_ne (c : Dev nD) (b : Ref sig .tc) (hb : ∀ w, Pipeline.arrRef spec0 w ≠ b) :
    U4 m c (Proc.devRef .tc b) = U3 m c (Proc.devRef .tc b) := by
  unfold U4; exact Pipeline.withArrays_of_ne spec0 c _ _ b hb
abbrev T4 : (c : Dev nD) → (b : Ref sig .tc) → Buf (Elt F) ((c : Thread nD τ).loc b) := fun c b => U4 m c b
theorem hF0 (c : Dev nD) (w : Fin cfg0.W) : (dat0 (T3 m) c).arrAt w cfg0.N = T4 m c (Pipeline.arrRef spec0 w) :=
  (U4_arr m c w).symm
theorem hrest0 (c : Dev nD) : ∀ b, b ∉ Finset.univ.image (Pipeline.arrRef spec0) → T4 m c b = T3 m c b :=
  fun b hb => U4_of_ne m c b fun w e => hb (Finset.mem_image.mpr ⟨w, Finset.mem_univ _, e⟩)
/-- After the statistics' host arithmetic: region 1's entry. -/
abbrev U5 : Dev nD → Valuation τ sig (Elt F) := fun c => StableHlo.after hostOps1 (U4 m c)
abbrev T5 : (c : Dev nD) → (b : Ref sig .tc) → Buf (Elt F) ((c : Thread nD τ).loc b) := fun c b => U5 m c b
/-- At region 1's exit. -/
def U6 (c : Dev nD) : Valuation τ sig (Elt F) :=
  Pipeline.withArrays spec1 c (U5 m c) fun w => (dat1 (T5 m) c).arrAt w cfg1.N
theorem U6_arr (c : Dev nD) (w : Fin cfg1.W) :
    U6 m c (Proc.devRef .tc (Pipeline.arrRef spec1 w)) = (dat1 (T5 m) c).arrAt w cfg1.N := by
  unfold U6; exact Pipeline.withArrays_arr spec1 launch1.win.arr_inj c _ _ w
theorem U6_of_ne (c : Dev nD) (b : Ref sig .tc) (hb : ∀ w, Pipeline.arrRef spec1 w ≠ b) :
    U6 m c (Proc.devRef .tc b) = U5 m c (Proc.devRef .tc b) := by
  unfold U6; exact Pipeline.withArrays_of_ne spec1 c _ _ b hb
abbrev T6 : (c : Dev nD) → (b : Ref sig .tc) → Buf (Elt F) ((c : Thread nD τ).loc b) := fun c b => U6 m c b
theorem hF1 (c : Dev nD) (w : Fin cfg1.W) : (dat1 (T5 m) c).arrAt w cfg1.N = T6 m c (Pipeline.arrRef spec1 w) :=
  (U6_arr m c w).symm
theorem hrest1 (c : Dev nD) : ∀ b, b ∉ Finset.univ.image (Pipeline.arrRef spec1) → T6 m c b = T5 m c b :=
  fun b hb => U6_of_ne m c b fun w e => hb (Finset.mem_image.mpr ⟨w, Finset.mem_univ _, e⟩)

/-! ## No item writes an argument -/

theorem U6_main_arg0 (c : Dev nD) : U6 m c (Proc.devRef .tc main_arg0) = m ((c : Thread nD τ).loc main_arg0) :=
  calc U6 m c (Proc.devRef .tc main_arg0)
    _ = U5 m c (Proc.devRef .tc main_arg0) := (U6_arr m c 1).trans (((dat1 (T5 m) c).arrAt_in 1 rfl _).trans (A_eq1 (T5 m) c 1))
    _ = U4 m c (Proc.devRef .tc main_arg0) := StableHlo.after_of_writes_sub hostOps1 _ hostOps1_writes (by decide)
    _ = U3 m c (Proc.devRef .tc main_arg0) := U4_of_ne m c main_arg0 (by decide)
    _ = U2 m c (Proc.devRef .tc main_arg0) := StableHlo.after_of_writes_sub hostOps0_2 _ hostOps0_2_writes (by decide)
    _ = U1 m c (Proc.devRef .tc main_arg0) := StableHlo.after_of_writes_sub hostOps0_1 _ hostOps0_1_writes (by decide)
    _ = U0 m c (Proc.devRef .tc main_arg0) := StableHlo.after_of_writes_sub hostOps0 _ hostOps0_writes (by decide)
    _ = m ((c : Thread nD τ).loc main_arg0) := rfl

theorem U6_main_arg1 (c : Dev nD) : U6 m c (Proc.devRef .tc main_arg1) = m ((c : Thread nD τ).loc main_arg1) :=
  calc U6 m c (Proc.devRef .tc main_arg1)
    _ = U5 m c (Proc.devRef .tc main_arg1) := U6_of_ne m c main_arg1 (by decide)
    _ = U4 m c (Proc.devRef .tc main_arg1) := StableHlo.after_of_writes_sub hostOps1 _ hostOps1_writes (by decide)
    _ = U3 m c (Proc.devRef .tc main_arg1) := (U4_arr m c 1).trans (((dat0 (T3 m) c).arrAt_in 1 rfl _).trans (A_eq0 (T3 m) c 1))
    _ = U2 m c (Proc.devRef .tc main_arg1) := StableHlo.after_of_writes_sub hostOps0_2 _ hostOps0_2_writes (by decide)
    _ = U1 m c (Proc.devRef .tc main_arg1) := StableHlo.after_of_writes_sub hostOps0_1 _ hostOps0_1_writes (by decide)
    _ = U0 m c (Proc.devRef .tc main_arg1) := StableHlo.after_of_writes_sub hostOps0 _ hostOps0_writes (by decide)
    _ = m ((c : Thread nD τ).loc main_arg1) := rfl

theorem U6_main_arg2 (c : Dev nD) : U6 m c (Proc.devRef .tc main_arg2) = m ((c : Thread nD τ).loc main_arg2) :=
  calc U6 m c (Proc.devRef .tc main_arg2)
    _ = U5 m c (Proc.devRef .tc main_arg2) := U6_of_ne m c main_arg2 (by decide)
    _ = U4 m c (Proc.devRef .tc main_arg2) := StableHlo.after_of_writes_sub hostOps1 _ hostOps1_writes (by decide)
    _ = U3 m c (Proc.devRef .tc main_arg2) := U4_of_ne m c main_arg2 (by decide)
    _ = U2 m c (Proc.devRef .tc main_arg2) := StableHlo.after_of_writes_sub hostOps0_2 _ hostOps0_2_writes (by decide)
    _ = U1 m c (Proc.devRef .tc main_arg2) := StableHlo.after_of_writes_sub hostOps0_1 _ hostOps0_1_writes (by decide)
    _ = U0 m c (Proc.devRef .tc main_arg2) := StableHlo.after_of_writes_sub hostOps0 _ hostOps0_writes (by decide)
    _ = m ((c : Thread nD τ).loc main_arg2) := rfl

theorem U6_main_arg3 (c : Dev nD) : U6 m c (Proc.devRef .tc main_arg3) = m ((c : Thread nD τ).loc main_arg3) :=
  calc U6 m c (Proc.devRef .tc main_arg3)
    _ = U5 m c (Proc.devRef .tc main_arg3) := U6_of_ne m c main_arg3 (by decide)
    _ = U4 m c (Proc.devRef .tc main_arg3) := StableHlo.after_of_writes_sub hostOps1 _ hostOps1_writes (by decide)
    _ = U3 m c (Proc.devRef .tc main_arg3) := U4_of_ne m c main_arg3 (by decide)
    _ = U2 m c (Proc.devRef .tc main_arg3) := StableHlo.after_of_writes_sub hostOps0_2 _ hostOps0_2_writes (by decide)
    _ = U1 m c (Proc.devRef .tc main_arg3) := StableHlo.after_of_writes_sub hostOps0_1 _ hostOps0_1_writes (by decide)
    _ = U0 m c (Proc.devRef .tc main_arg3) := StableHlo.after_of_writes_sub hostOps0 _ hostOps0_writes (by decide)
    _ = m ((c : Thread nD τ).loc main_arg3) := rfl

theorem U6_main_arg4 (c : Dev nD) : U6 m c (Proc.devRef .tc main_arg4) = m ((c : Thread nD τ).loc main_arg4) :=
  calc U6 m c (Proc.devRef .tc main_arg4)
    _ = U5 m c (Proc.devRef .tc main_arg4) := U6_of_ne m c main_arg4 (by decide)
    _ = U4 m c (Proc.devRef .tc main_arg4) := StableHlo.after_of_writes_sub hostOps1 _ hostOps1_writes (by decide)
    _ = U3 m c (Proc.devRef .tc main_arg4) := U4_of_ne m c main_arg4 (by decide)
    _ = U2 m c (Proc.devRef .tc main_arg4) := StableHlo.after_of_writes_sub hostOps0_2 _ hostOps0_2_writes (by decide)
    _ = U1 m c (Proc.devRef .tc main_arg4) := StableHlo.after_of_writes_sub hostOps0_1 _ hostOps0_1_writes (by decide)
    _ = U0 m c (Proc.devRef .tc main_arg4) := StableHlo.after_of_writes_sub hostOps0 _ hostOps0_writes (by decide)
    _ = m ((c : Thread nD τ).loc main_arg4) := rfl

theorem U6_main_arg5 (c : Dev nD) : U6 m c (Proc.devRef .tc main_arg5) = m ((c : Thread nD τ).loc main_arg5) :=
  calc U6 m c (Proc.devRef .tc main_arg5)
    _ = U5 m c (Proc.devRef .tc main_arg5) := U6_of_ne m c main_arg5 (by decide)
    _ = U4 m c (Proc.devRef .tc main_arg5) := StableHlo.after_of_writes_sub hostOps1 _ hostOps1_writes (by decide)
    _ = U3 m c (Proc.devRef .tc main_arg5) := U4_of_ne m c main_arg5 (by decide)
    _ = U2 m c (Proc.devRef .tc main_arg5) := StableHlo.after_of_writes_sub hostOps0_2 _ hostOps0_2_writes (by decide)
    _ = U1 m c (Proc.devRef .tc main_arg5) := StableHlo.after_of_writes_sub hostOps0_1 _ hostOps0_1_writes (by decide)
    _ = U0 m c (Proc.devRef .tc main_arg5) := StableHlo.after_of_writes_sub hostOps0 _ hostOps0_writes (by decide)
    _ = m ((c : Thread nD τ).loc main_arg5) := rfl

theorem U6_main_arg6 (c : Dev nD) : U6 m c (Proc.devRef .tc main_arg6) = m ((c : Thread nD τ).loc main_arg6) :=
  calc U6 m c (Proc.devRef .tc main_arg6)
    _ = U5 m c (Proc.devRef .tc main_arg6) := U6_of_ne m c main_arg6 (by decide)
    _ = U4 m c (Proc.devRef .tc main_arg6) := StableHlo.after_of_writes_sub hostOps1 _ hostOps1_writes (by decide)
    _ = U3 m c (Proc.devRef .tc main_arg6) := U4_of_ne m c main_arg6 (by decide)
    _ = U2 m c (Proc.devRef .tc main_arg6) := StableHlo.after_of_writes_sub hostOps0_2 _ hostOps0_2_writes (by decide)
    _ = U1 m c (Proc.devRef .tc main_arg6) := StableHlo.after_of_writes_sub hostOps0_1 _ hostOps0_1_writes (by decide)
    _ = U0 m c (Proc.devRef .tc main_arg6) := StableHlo.after_of_writes_sub hostOps0 _ hostOps0_writes (by decide)
    _ = m ((c : Thread nD τ).loc main_arg6) := rfl

/-- The result buffer at the end is the second region's output array as its write-backs leave it. -/
theorem U6_main_v37 (c : Dev nD) : U6 m c (Proc.devRef .tc main_v37) = (dat1 (T5 m) c).arrAt 6 cfg1.N :=
  U6_arr m c 6

/-! ## The proof data family and the thread state -/

abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (T3 m) c
  | ⟨1, _⟩ => fun c => dat1 (T5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U6 m c) ∗ ∃ r, prngReg c r)

/-! ## The regions as segments -/

set_option backward.isDefEq.respectTransparency.types false in
/-- Region 0 as a segment: entered with every unscoped buffer at `U3`, left with them at `U4`; its arrays are split out of
    the unscoped buffers at entry and put back at exit; the generator register passes through the invariant; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (T3 m) c)
    unfold Pipeline.ΦA
    iintro ⟨Hp, -, Hr⟩
    isplitl [Hr]; · iexact Hr
    iexact Hp
  hout c := by
    rw [Pipeline.ownSems0_none]
    refine BIBase.Entails.trans (hout0 (T3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `U5`, left with them at `U6`; its arrays are split out of
    the unscoped buffers at entry and put back at exit; the generator register passes through the invariant; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U4 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final state holds every unscoped buffer at the last fold `U6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-- THE FRAME and the result together: every argument ends as launched, and the result buffer ends at the second region's
    output array as its write-backs leave it. -/
theorem run_value : θ_run defs (onTc (τ := τ) (main (F := F))) ⟨m, fun _ => 0, ρ⟩ (fun r => ∀ c : Dev nD,
      r.2.mem ((c.tc : Thread nD τ).loc main_v37) = (dat1 (T5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v37 (by decide))).trans (U6_main_v37 m c),
     (h c _ (mem_uc main_arg0 (by decide))).trans (U6_main_arg0 m c),
     (h c _ (mem_uc main_arg1 (by decide))).trans (U6_main_arg1 m c),
     (h c _ (mem_uc main_arg2 (by decide))).trans (U6_main_arg2 m c),
     (h c _ (mem_uc main_arg3 (by decide))).trans (U6_main_arg3 m c),
     (h c _ (mem_uc main_arg4 (by decide))).trans (U6_main_arg4 m c),
     (h c _ (mem_uc main_arg5 (by decide))).trans (U6_main_arg5 m c),
     (h c _ (mem_uc main_arg6 (by decide))).trans (U6_main_arg6 m c)⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c => (h c).2) (run_value m ρ)

end Cert.KernelIdeal.Hand

end
-- ==== Proof.Spec.lean ====
/- The mathematics of the certificate, free of any program: a graph-convolution layer's node update.
   From the aggregated features `h` (one row per node), the linear layer `l = h · Wᵀ + b`, the column
   mean and variance of `l` over the nodes, the normalised rows scaled by `γ`, shifted by `β`, rectified
   and added to the residual `f`. The kernel computes the variance as the mean of squares minus the squared
   mean and multiplies by the reciprocal square root; the reference computes the mean of squared deviations and
   divides by the square root. Over finite entries the two agree. -/
import Idealize.ShloMosaic.PureOps.Ideal
import Idealize.ShloMosaic.PureOps.Ideal.Laws
import Idealize.ShloMosaic.Lib.ValueIdx
import Mathlib.Algebra.BigOperators.Group.Finset.Basic
import Mathlib.Analysis.SpecialFunctions.Sqrt

noncomputable section

namespace Cert.Spec

open Idealize.ShloMosaic

/-- A node array: 50000 rows of 128 features. -/
abbrev NodeArr := Fin 50000 → Fin 128 → EReal
/-- A weight matrix, and a feature row. -/
abbrev WMat := Fin 128 → Fin 128 → EReal
abbrev Row := Fin 128 → EReal

/-- The number of nodes, as the single-precision word both programs divide by. -/
def cN : EReal := Ideal.ofBits .f32 0x47435000#32
/-- The variance offset, as the single-precision word both programs add. -/
def eps : EReal := Ideal.ofBits .f32 0x3727C5AC#32

/-- The linear layer: row `i` of `h` against row `j` of `W`, plus the bias. -/
def lin (h : NodeArr) (W : WMat) (b : Row) : NodeArr := fun i j => (∑ k : Fin 128, h i k * W j k) + b j
/-- Column sums and column sums of squares over the nodes. -/
def S1 (l : NodeArr) : Row := fun j => ∑ i : Fin 50000, l i j
def S2 (l : NodeArr) : Row := fun j => ∑ i : Fin 50000, l i j * l i j

/-- The column mean. -/
def mu (l : NodeArr) : Row := fun j => Ideal.div (S1 l j) cN
/-- The kernel's variance: mean of squares minus squared mean. -/
def kVar (l : NodeArr) : Row := fun j => Ideal.div (S2 l j) cN - mu l j * mu l j
/-- The kernel's result. -/
def kOut (l : NodeArr) (ga be : Row) (f : NodeArr) : NodeArr := fun i j =>
  f i j + max ((l i j - mu l j) * Ideal.rsqrt (kVar l j + eps) * ga j + be j) 0

/-- The reference's variance: mean of squared deviations. -/
def rVar (l : NodeArr) : Row := fun j => Ideal.div (∑ i : Fin 50000, (l i j - mu l j) * (l i j - mu l j)) cN
/-- The reference's result. -/
def rOut (l : NodeArr) (ga be : Row) (f : NodeArr) : NodeArr := fun i j =>
  f i j + max (Ideal.div (l i j - mu l j) (Ideal.sqrt (rVar l j + eps)) * ga j + be j) 0

/-- An array of finite entries. -/
def Finite2 {A B : Type} (x : A → B → EReal) : Prop := ∀ i j, ∃ r : ℝ, x i j = (r : EReal)
def Finite1 {A : Type} (x : A → EReal) : Prop := ∀ j, ∃ r : ℝ, x j = (r : EReal)

/-! ### The two word constants, and coercions out of finite sums -/

/-- The divisor word denotes the real 50000. -/
private theorem cN_eq : cN = ((50000 : ℝ) : EReal) := by
  simp [cN, Ideal.ofBits, Ideal.ieee, -EReal.coe_mul]; norm_num

/-- The offset word denotes a positive real. -/
private theorem eps_pos : ∃ e : ℝ, 0 < e ∧ eps = (e : EReal) := by
  simp [eps, Ideal.ofBits, Ideal.ieee, -EReal.coe_mul]

/-- The coercion of a finite real sum is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of squares minus the squared mean is the mean of squared deviations. -/
private theorem var_id (r : Fin 50000 → ℝ) (m : ℝ) (hm : m = (∑ i, r i) * (1 / 50000)) :
    (∑ i, r i * r i) * (1 / 50000) - m * m = (∑ i, (r i - m) * (r i - m)) * (1 / 50000) := by
  have h1 : ∀ i, (r i - m) * (r i - m) = r i * r i - 2 * m * r i + m * m := fun i => by ring
  have h2 : (∑ i, r i) = 50000 * m := by rw [hm]; ring
  simp only [h1, Finset.sum_add_distrib, Finset.sum_sub_distrib, ← Finset.mul_sum, Finset.sum_const,
    Finset.card_univ, Fintype.card_fin, nsmul_eq_mul, h2]
  push_cast
  ring

/-- The linear layer of finite data is finite. -/
theorem lin_finite (h : NodeArr) (W : WMat) (b : Row) (hh : Finite2 h) (hW : Finite2 W) (hb : Finite1 b) :
    Finite2 (lin h W b) := by
  choose rh hrh using hh
  choose rW hrW using hW
  choose rb hrb using hb
  intro i j
  refine ⟨(∑ k : Fin 128, rh i k * rW j k) + rb j, ?_⟩
  simp only [lin, hrh, hrW, hrb]
  rw [EReal.coe_add, coe_sum]
  simp only [EReal.coe_mul]

/-- THE BRIDGE: over finite entries of the linear layer, the two results agree entry by entry
    (whatever `γ`, `β` and the residual are). -/
theorem kOut_eq_rOut (l : NodeArr) (hl : Finite2 l) (ga be : Row) (f : NodeArr) : kOut l ga be f = rOut l ga be f := by
  choose r hr using hl
  obtain ⟨e, he, heps⟩ := eps_pos
  funext i j
  have h50 : (50000 : ℝ) ≠ 0 := by norm_num
  -- the column mean is the coercion of the real mean
  have hmu : mu l j = (((∑ i, r i j) * (1 / 50000) : ℝ) : EReal) := by
    simp only [mu, S1, cN_eq, hr]
    rw [Ideal.div_coe h50, ← coe_sum, ← EReal.coe_mul]
  set m : ℝ := (∑ i, r i j) * (1 / 50000) with hm
  -- the kernel's variance
  have hk : kVar l j = (((∑ i, r i j * r i j) * (1 / 50000) - m * m : ℝ) : EReal) := by
    simp only [kVar, S2, hmu, cN_eq, hr]
    rw [Ideal.div_coe h50]
    simp only [← EReal.coe_mul, ← coe_sum, ← EReal.coe_sub]
  -- the reference's variance
  have hrv : rVar l j = (((∑ i, (r i j - m) * (r i j - m)) * (1 / 50000) : ℝ) : EReal) := by
    simp only [rVar, hmu, cN_eq, hr]
    rw [Ideal.div_coe h50]
    simp only [← EReal.coe_sub, ← EReal.coe_mul, ← coe_sum]
  have hv := var_id (fun i => r i j) m hm
  set v : ℝ := (∑ i, (r i j - m) * (r i j - m)) * (1 / 50000) with hvdef
  have hv0 : 0 ≤ v := mul_nonneg (Finset.sum_nonneg fun i _ => mul_self_nonneg _) (by norm_num)
  have ht : 0 < v + e := by linarith
  have hs : Real.sqrt (v + e) ≠ 0 := (Real.sqrt_pos.mpr ht).ne'
  simp only [kOut, rOut, hk, hrv, hv, heps, ← EReal.coe_add]
  rw [Ideal.rsqrt_coe, if_neg (not_lt.mpr ht.le), if_neg ht.ne', Ideal.sqrt_coe, if_neg (not_lt.mpr ht.le),
    Ideal.div_coe hs, one_div]

end Cert.Spec

end
-- ==== Proof.KI.KVal0S.lean ====
/- The two accumulator rows of the first kernel region after the run: the statistics outputs are written back once, at the
   last grid point, and hold there the running sums over all ten blocks: the column sums of each block's linear layer, and of
   its squares, added one block after the other to a zero start. -/
import proofs.«108163_j46162308497632_1_alg».proof.Proof.KI.Dat
import proofs.«108163_j46162308497632_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Block `t`'s linear layer at (row, column), as an extended real. -/
def linB (c : Dev nD) (t : Fin cfg0.N) (r : Fin 5000) (j : Fin 128) : EReal :=
  k0_pay3 (xb0 V c t) (wb0 V c t) (bb0 V c t) (ix2 r j)

/-! ## The accumulator payloads at a column -/

/-- A column reduction of a block, recast as a row, read at a column: the sum down that column. -/
private theorem colsum_apply (v : FVec Ideal S5000x128 .f32) (j : Fin 128) :
    shapeCast S1x128 (multiReduction (F := Ideal) .add [0] S128 v 0x00000000#32 reduces_S5000x128_S128 (.inl rfl) rfl) shapeCasts_S128_S1x128 (ix2 (0 : Fin 1) j)
      = ∑ r : Fin 5000, v (ix2 r j) := by
  refine (shapeCast_a_1a_apply _ _ _ _).trans ?_
  refine (Ideal.multiReduction_add_single v _ _ _ _ _).trans ?_
  refine Finset.sum_congr rfl fun r _ => congrArg v ?_
  funext a; match a with | ⟨0, _⟩ => rfl | ⟨1, _⟩ => rfl

/-- The first accumulator's start is zero. -/
private theorem pay1_apply (j : Fin 128) : (k0_pay1 (F := Ideal)) (ix2 (0 : Fin 1) j) = 0 := by
  unfold k0_pay1
  simp only [shapeCast_self, broadcast_apply]
  exact Ideal.ofBits_zero_f32

/-- The second accumulator's start is zero. -/
private theorem pay2_apply (j : Fin 128) : (k0_pay2 (F := Ideal)) (ix2 (0 : Fin 1) j) = 0 := by
  unfold k0_pay2
  simp only [shapeCast_self, broadcast_apply]
  exact Ideal.ofBits_zero_f32

/-- The first accumulator after a block: what it held plus the block's column sums. -/
private theorem pay4_apply (x : Vec Ideal S5000x128 .f32) (w : Vec Ideal S128x128 .f32) (b s : Vec Ideal S1x128 .f32) (j : Fin 128) :
    k0_pay4 x w b s (ix2 (0 : Fin 1) j) = s (ix2 (0 : Fin 1) j) + ∑ r : Fin 5000, k0_pay3 x w b (ix2 r j) := by
  unfold k0_pay4
  simp only [shapeCast_self]
  refine (addf_apply _ _ _).trans ?_
  exact congrArg (s (ix2 (0 : Fin 1) j) + ·) (colsum_apply _ j)

/-- The second accumulator after a block: what it held plus the column sums of the block's squares. -/
private theorem pay5_apply (x : Vec Ideal S5000x128 .f32) (w : Vec Ideal S128x128 .f32) (b s : Vec Ideal S1x128 .f32) (j : Fin 128) :
    k0_pay5 x w b s (ix2 (0 : Fin 1) j) = s (ix2 (0 : Fin 1) j) + ∑ r : Fin 5000, k0_pay3 x w b (ix2 r j) * k0_pay3 x w b (ix2 r j) := by
  unfold k0_pay5
  simp only [shapeCast_self]
  refine (addf_apply _ _ _).trans ?_
  exact congrArg (s (ix2 (0 : Fin 1) j) + ·) ((colsum_apply _ j).trans rfl)

/-! ## The running sums after each point -/

/-- Block `n`'s column sum at column `j` (zero past the grid). -/
private def colB (c : Dev nD) (j : Fin 128) (n : ℕ) : EReal :=
  if h : n < cfg0.N then ∑ r : Fin 5000, linB V c ⟨n, h⟩ r j else 0

/-- Block `n`'s column sum of squares at column `j` (zero past the grid). -/
private def colB2 (c : Dev nD) (j : Fin 128) (n : ℕ) : EReal :=
  if h : n < cfg0.N then ∑ r : Fin 5000, linB V c ⟨n, h⟩ r j * linB V c ⟨n, h⟩ r j else 0

/-- After point `n` the first accumulator holds the column sums of blocks `0..n`. -/
private theorem sAt_fst_apply (c : Dev nD) (j : Fin 128) :
    ∀ (n : ℕ) (h : n < cfg0.N), (sAt V c n h).1 (ix2 (0 : Fin 1) j) = ∑ t ∈ Finset.range (n + 1), colB V c j t
  | 0, h => by
    have e : colB V c j 0 = ∑ r : Fin 5000, linB V c ⟨0, h⟩ r j := dif_pos h
    show k0_pay4 _ _ _ k0_pay1 (ix2 (0 : Fin 1) j) = _
    rw [pay4_apply, pay1_apply, zero_add, Finset.sum_range_one, e]; rfl
  | n + 1, h => by
    have e : colB V c j (n + 1) = ∑ r : Fin 5000, linB V c ⟨n + 1, h⟩ r j := dif_pos h
    show k0_pay4 _ _ _ (sAt V c n _).1 (ix2 (0 : Fin 1) j) = _
    rw [pay4_apply, sAt_fst_apply c j n, Finset.sum_range_succ _ (n + 1), e]; rfl

/-- After point `n` the second accumulator holds the column sums of squares of blocks `0..n`. -/
private theorem sAt_snd_apply (c : Dev nD) (j : Fin 128) :
    ∀ (n : ℕ) (h : n < cfg0.N), (sAt V c n h).2 (ix2 (0 : Fin 1) j) = ∑ t ∈ Finset.range (n + 1), colB2 V c j t
  | 0, h => by
    have e : colB2 V c j 0 = ∑ r : Fin 5000, linB V c ⟨0, h⟩ r j * linB V c ⟨0, h⟩ r j := dif_pos h
    show k0_pay5 _ _ _ k0_pay2 (ix2 (0 : Fin 1) j) = _
    rw [pay5_apply, pay2_apply, zero_add, Finset.sum_range_one, e]; rfl
  | n + 1, h => by
    have e : colB2 V c j (n + 1) = ∑ r : Fin 5000, linB V c ⟨n + 1, h⟩ r j * linB V c ⟨n + 1, h⟩ r j := dif_pos h
    show k0_pay5 _ _ _ (sAt V c n _).2 (ix2 (0 : Fin 1) j) = _
    rw [pay5_apply, sAt_snd_apply c j n, Finset.sum_range_succ _ (n + 1), e]; rfl

/-! ## From the last point's block to the array -/

private theorem lt9 : 9 < cfg0.N := by rw [show cfg0.N = 10 from N_0]; decide

/-- What the two statistics arrays end holding: the accumulators after the last point. -/
private abbrev result4 (c : Dev nD) : Buf (Elt Ideal) ((c : Thread nD τ).loc main_v24_1) := (sAt V c 9 lt9).1
private abbrev result5 (c : Dev nD) : Buf (Elt Ideal) ((c : Thread nD τ).loc main_v24_2) := (sAt V c 9 lt9).2

/-- The one write-back of the first statistics window, at point 9, writes the whole array. -/
private theorem flushed4_eq (c : Dev nD) (t : Fin cfg0.N) (hf : (cfg0.win 4).flush t = true) :
    (dat0 V c).flushed 4 t = ((cfg0.win 4).blk t).view.read (Elt Ideal) (result4 V c) := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4]
  have hz' : (fun a => win0_4.index t0_9 a * main_v24_1.ty.shape.size a) = fun _ => 0 := funext fun a => by fin_cases a <;> decide
  exact (Memref.read_access_unit_zero (Elt Ideal) main_v24_1 hz' (fun a => by rw [congrFun hz' a]; simp) (result4 V c)).symm

private theorem flushed5_eq (c : Dev nD) (t : Fin cfg0.N) (hf : (cfg0.win 5).flush t = true) :
    (dat0 V c).flushed 5 t = ((cfg0.win 5).blk t).view.read (Elt Ideal) (result5 V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  have hz' : (fun a => win0_5.index t0_9 a * main_v24_2.ty.shape.size a) = fun _ => 0 := funext fun a => by fin_cases a <;> decide
  exact (Memref.read_access_unit_zero (Elt Ideal) main_v24_2 hz' (fun a => by rw [congrFun hz' a]; simp) (result5 V c)).symm

/-- So the first statistics array ends holding the first accumulator after point 9: that point's block covers it. -/
private theorem final4 (c : Dev nD) : (dat0 V c).arrAt 4 cfg0.N = result4 V c :=
  (dat0 V c).arrAt_eq_of_cover 4 (result4 V c) (flushed4_eq V c) fun i =>
    ⟨t0_9, (flush0_4 t0_9).mpr rfl, by
      show i ∈ ((View.whole main_v24_1).slice (win0_4.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 1 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 128 from by decide +kernel]; omega⟩

private theorem final5 (c : Dev nD) : (dat0 V c).arrAt 5 cfg0.N = result5 V c :=
  (dat0 V c).arrAt_eq_of_cover 5 (result5 V c) (flushed5_eq V c) fun i =>
    ⟨t0_9, (flush0_5 t0_9).mpr rfl, by
      show i ∈ ((View.whole main_v24_2).slice (win0_5.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 1 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 128 from by decide +kernel]; omega⟩

/-! ## The statements -/

/-- The first statistics output holds the column sums over all blocks. -/
theorem acc_sum (c : Dev nD) (j : Fin 128) :
    (dat0 V c).arrAt 4 cfg0.N (ix2 (0 : Fin 1) j) = ∑ t : Fin cfg0.N, ∑ r : Fin 5000, linB V c t r j := by
  have hN : cfg0.N = 9 + 1 := N_0
  rw [final4 V c]
  calc (sAt V c 9 lt9).1 (ix2 (0 : Fin 1) j) = ∑ t ∈ Finset.range (9 + 1), colB V c j t := sAt_fst_apply V c j 9 _
    _ = ∑ t ∈ Finset.range cfg0.N, colB V c j t := by rw [hN]
    _ = ∑ t : Fin cfg0.N, colB V c j t.val := Finset.sum_range _
    _ = _ := Finset.sum_congr rfl fun t _ => dif_pos t.isLt

/-- The second statistics output holds the column sums of squares over all blocks. -/
theorem acc_sumsq (c : Dev nD) (j : Fin 128) :
    (dat0 V c).arrAt 5 cfg0.N (ix2 (0 : Fin 1) j) = ∑ t : Fin cfg0.N, ∑ r : Fin 5000, linB V c t r j * linB V c t r j := by
  have hN : cfg0.N = 9 + 1 := N_0
  rw [final5 V c]
  calc (sAt V c 9 lt9).2 (ix2 (0 : Fin 1) j) = ∑ t ∈ Finset.range (9 + 1), colB2 V c j t := sAt_snd_apply V c j 9 _
    _ = ∑ t ∈ Finset.range cfg0.N, colB2 V c j t := by rw [hN]
    _ = ∑ t : Fin cfg0.N, colB2 V c j t.val := Finset.sum_range _
    _ = _ := Finset.sum_congr rfl fun t _ => dif_pos t.isLt

/-- A sum over 50000 rows is the sum over ten blocks of the sums over each block's 5000 rows. -/
theorem sum_split (g : Fin 50000 → EReal) :
    ∑ i : Fin 50000, g i = ∑ t : Fin 10, ∑ r : Fin 5000, g ⟨t.val * 5000 + r.val, by have := t.isLt; have := r.isLt; omega⟩ := by
  calc ∑ i : Fin 50000, g i = ∑ p : Fin 10 × Fin 5000, g (finProdFinEquiv p) :=
        (Fintype.sum_equiv (finProdFinEquiv (m := 10) (n := 5000)) _ _ (fun _ => rfl)).symm
    _ = ∑ t : Fin 10, ∑ r : Fin 5000, g (finProdFinEquiv (t, r)) := Fintype.sum_prod_type _
    _ = _ := by
      refine Finset.sum_congr rfl fun t _ => Finset.sum_congr rfl fun r _ => ?_
      congr 1
      apply Fin.ext
      show r.val + 5000 * t.val = t.val * 5000 + r.val
      omega

end Cert.KernelIdeal.Hand

end
-- ==== Proof.KI.KVal0.lean ====
/- What the first region leaves in its three outputs, entry by entry, at the ideal instance: the linear layer of the
   whole aggregated-feature array (each block of 5000 rows is written back at its own point), and in the two
   statistics rows the column sums and sums of squares over all 50000 rows (ten blocks accumulated one after the other
   from zero). -/
import proofs.«108163_j46162308497632_1_alg».proof.Proof.KI.Dat
import proofs.«108163_j46162308497632_1_alg».proof.Proof.KI.KVal0S
import proofs.«108163_j46162308497632_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's three input arrays as plain functions of (row, column). -/
def hA (c : Dev nD) : Cert.Spec.NodeArr := fun i k => V c main_v22 (ix2 i k)
def wA (c : Dev nD) : Cert.Spec.WMat := fun j k => V c main_arg1 (ix2 j k)
def bA (c : Dev nD) : Cert.Spec.Row := fun j => V c main_v23 (ix2 (0 : Fin 1) j)

/-- The matmul's contraction indices, axis by axis. -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block matmul against the zero accumulator, at an entry: row p of the left against column q of the right. -/
theorem mm_apply (a : FVec Ideal S5000x128 .bf16) (b : FVec Ideal S128x128 .bf16) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The transposed weights at an entry. -/
theorem tr_apply (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The block's linear layer at an entry. -/
theorem pay3_apply (x : Vec Ideal S5000x128 .f32) (w : Vec Ideal S128x128 .f32) (b : Vec Ideal S1x128 .f32) (p : Fin 5000) (q : Fin 128) :
    k0_pay3 x w b (ix2 p q) = (∑ k : Fin 128, x (ix2 p k) * w (ix2 q k)) + b (ix2 (0 : Fin 1) q) := by
  unfold k0_pay3
  simp only [shapeCast_self]
  rw [addf_apply]
  refine congrArg₂ (· + ·) ?_ ?_
  · refine (mm_apply _ _ p q).trans ?_
    refine Finset.sum_congr rfl fun k _ => ?_
    rw [tr_apply]; rfl
  · exact broadcastTo_1b_ab_apply _ _ p q

/-- The block index maps over the ten points: the two 5000-row windows sit at block row t, the others at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem xb0_apply (c : Dev nD) (t : Fin cfg0.N) (p : Fin 5000) (k : Fin 128) (i : Fin 50000) (hi : i.val = 5000 * t.val + p.val) :
    xb0 V c t (ix2 p k) = hA V c i k := by
  obtain ⟨e0, e1, -⟩ := idx_facts0 t
  unfold hA
  show V c main_v22 (((cfg0.win 0).blk t).view.emb (ix2 p k)) = V c main_v22 (ix2 i k)
  refine congrArg _ (funext fun a => Fin.ext ?_)
  match a with
  | ⟨0, _⟩ => show win0_0.index t (0 : Fin 2) * 5000 + 1 * p.val = i.val; rw [e0, hi]; omega
  | ⟨1, _⟩ => show win0_0.index t (1 : Fin 2) * 128 + 1 * k.val = k.val; rw [e1]; omega

theorem wb0_apply (c : Dev nD) (t : Fin cfg0.N) (q k : Fin 128) :
    wb0 V c t (ix2 q k) = wA V c q k := by
  obtain ⟨-, -, e0, e1, -⟩ := idx_facts0 t
  unfold wA
  show V c main_arg1 (((cfg0.win 1).blk t).view.emb (ix2 q k)) = V c main_arg1 (ix2 q k)
  refine congrArg _ (funext fun a => Fin.ext ?_)
  match a with
  | ⟨0, _⟩ => show win0_1.index t (0 : Fin 2) * 128 + 1 * q.val = q.val; rw [e0]; omega
  | ⟨1, _⟩ => show win0_1.index t (1 : Fin 2) * 128 + 1 * k.val = k.val; rw [e1]; omega

theorem bb0_apply (c : Dev nD) (t : Fin cfg0.N) (q : Fin 128) :
    bb0 V c t (ix2 (0 : Fin 1) q) = bA V c q := by
  obtain ⟨-, -, -, -, e0, e1, -⟩ := idx_facts0 t
  unfold bA
  show V c main_v23 (((cfg0.win 2).blk t).view.emb (ix2 (0 : Fin 1) q)) = V c main_v23 (ix2 (0 : Fin 1) q)
  refine congrArg _ (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 128 + 1 * q.val = q.val; rw [e1]; omega

/-- What point t leaves in the first output's block, at an entry: the linear layer at row 5000 t + p. -/
theorem lin_block_apply (c : Dev nD) (t : Fin cfg0.N) (p : Fin 5000) (q : Fin 128) (i : Fin 50000) (hi : i.val = 5000 * t.val + p.val) :
    k0_pay3 (xb0 V c t) (wb0 V c t) (bb0 V c t) (ix2 p q) = Cert.Spec.lin (hA V c) (wA V c) (bA V c) i q := by
  refine (pay3_apply (xb0 V c t) (wb0 V c t) (bb0 V c t) p q).trans ?_
  unfold Cert.Spec.lin
  rw [bb0_apply V c t q]
  refine congrArg (· + _) (Finset.sum_congr rfl fun k _ => ?_)
  rw [xb0_apply V c t p k i hi, wb0_apply V c t q k]

/-- The same with the row spelt from the point and the row inside the block. -/
theorem lin_block (c : Dev nD) (t : Fin cfg0.N) (r : Fin 5000) (j : Fin 128) :
    (k0_pay3 (xb0 V c t) (wb0 V c t) (bb0 V c t) (ix2 r j) : EReal) = Cert.Spec.lin (hA V c) (wA V c) (bA V c) ⟨t.val * 5000 + r.val, by have := t.isLt; have h10 : cfg0.N = 10 := N_0; have := r.isLt; omega⟩ j :=
  lin_block_apply V c t r j _ (congrArg (· + r.val) (Nat.mul_comm t.val 5000))

/-- The whole first output as one function of the index. -/
def linArr (c : Dev nD) : S50000x128.Idx → Elt Ideal .f32 := fun i => Cert.Spec.lin (hA V c) (wA V c) (bA V c) (i 0) (i 1)

/-- What point t writes back into the first output is block t of the linear layer. -/
theorem flushed3_eq (c : Dev nD) (t : Fin cfg0.N) :
    (dat0 V c).flushed 3 t = ((cfg0.win 3).blk t).view.read (Elt Ideal) (linArr V c) := by
  show (cfg0.win 3).cut (grid0.coords t) ((dat0 V c).after 3 t) = _
  rw [after0_3]
  obtain ⟨-, -, -, -, -, -, e0, e1, -⟩ := idx_facts0 t
  have ht : t.val < 10 := lt_of_lt_of_eq t.isLt N_0
  funext j
  obtain ⟨p, q, rfl⟩ : ∃ (p : Fin 5000) (q : Fin 128), j = ix2 p q := ⟨j 0, j 1, eq_ix2 j⟩
  show k0_pay3 (xb0 V c t) (wb0 V c t) (bb0 V c t) (ix2 p q) = linArr V c (((cfg0.win 3).blk t).view.emb (ix2 p q))
  refine (lin_block_apply V c t p q ⟨5000 * t.val + p.val, by omega⟩ rfl).trans ?_
  unfold linArr
  congr 1 <;> apply Fin.ext
  · show 5000 * t.val + p.val = win0_3.index t (0 : Fin 2) * 5000 + 1 * p.val; rw [e0]; omega
  · show q.val = win0_3.index t (1 : Fin 2) * 128 + 1 * q.val; rw [e1]; omega

/-- An index of the first output is in point t's block iff each coordinate is in the block's range on its axis. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v24_0).slice (win0_3.rect t)).set ↔ _
  rw [View.set_slice_whole, Rect.mem_set_unit]
  exact Iff.rfl

/-- Row i of the first output is in the block of point i / 5000. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk3]
  obtain ⟨-, -, -, -, -, -, e0, e1, -⟩ := idx_facts0 t
  intro a
  match a with
  | ⟨0, _⟩ => show win0_3.index t (0 : Fin 2) * 5000 ≤ (i 0).val ∧ (i 0).val < win0_3.index t (0 : Fin 2) * 5000 + 5000; rw [e0]; omega
  | ⟨1, _⟩ => show win0_3.index t (1 : Fin 2) * 128 ≤ (i 1).val ∧ (i 1).val < win0_3.index t (1 : Fin 2) * 128 + 128; rw [e1]; omega

/-- The first output is the linear layer, row by row. -/
theorem out0_lin (c : Dev nD) (i : Fin 50000) (j : Fin 128) :
    (dat0 V c).arrAt 3 cfg0.N (ix2 i j) = Cert.Spec.lin (hA V c) (wA V c) (bA V c) i j := by
  rw [(dat0 V c).arrAt_eq_of_cover 3 (linArr V c) (fun t _ => flushed3_eq V c t) cover3]
  rfl

/-- The second output is the column sums of the linear layer over all rows. -/
theorem out0_sum (c : Dev nD) (j : Fin 128) :
    (dat0 V c).arrAt 4 cfg0.N (ix2 (0 : Fin 1) j) = Cert.Spec.S1 (Cert.Spec.lin (hA V c) (wA V c) (bA V c)) j := by
  have h1 : ((dat0 V c).arrAt 4 cfg0.N (ix2 (0 : Fin 1) j) : EReal) = ∑ t : Fin cfg0.N, ∑ r : Fin 5000, linB V c t r j := acc_sum V c j
  have h2 : (∑ t : Fin cfg0.N, ∑ r : Fin 5000, linB V c t r j)
      = ∑ t : Fin 10, ∑ r : Fin 5000, Cert.Spec.lin (hA V c) (wA V c) (bA V c) ⟨t.val * 5000 + r.val, by have := t.isLt; have := r.isLt; omega⟩ j :=
    Fintype.sum_equiv (finCongr N_0) _ _ fun t => Finset.sum_congr rfl fun r _ => lin_block V c t r j
  exact h1.trans (h2.trans (sum_split (fun i => Cert.Spec.lin (hA V c) (wA V c) (bA V c) i j)).symm)

/-- The third output is the column sums of squares. -/
theorem out0_sumsq (c : Dev nD) (j : Fin 128) :
    (dat0 V c).arrAt 5 cfg0.N (ix2 (0 : Fin 1) j) = Cert.Spec.S2 (Cert.Spec.lin (hA V c) (wA V c) (bA V c)) j := by
  have h1 : ((dat0 V c).arrAt 5 cfg0.N (ix2 (0 : Fin 1) j) : EReal) = ∑ t : Fin cfg0.N, ∑ r : Fin 5000, linB V c t r j * linB V c t r j := acc_sumsq V c j
  have h2 : (∑ t : Fin cfg0.N, ∑ r : Fin 5000, linB V c t r j * linB V c t r j)
      = ∑ t : Fin 10, ∑ r : Fin 5000, Cert.Spec.lin (hA V c) (wA V c) (bA V c) ⟨t.val * 5000 + r.val, by have := t.isLt; have := r.isLt; omega⟩ j
          * Cert.Spec.lin (hA V c) (wA V c) (bA V c) ⟨t.val * 5000 + r.val, by have := t.isLt; have := r.isLt; omega⟩ j :=
    Fintype.sum_equiv (finCongr N_0) _ _ fun t => Finset.sum_congr rfl fun r _ => congrArg₂ (· * ·) (lin_block V c t r j) (lin_block V c t r j)
  exact h1.trans (h2.trans (sum_split (fun i => Cert.Spec.lin (hA V c) (wA V c) (bA V c) i j * Cert.Spec.lin (hA V c) (wA V c) (bA V c) i j)).symm)

end Cert.KernelIdeal.Hand

end
-- ==== Proof.KI.KVal1.lean ====
/- What the second region leaves in its output, entry by entry, at the ideal instance: each block of 5000 rows is the
   pointwise normalise / scale / shift / rectify / add-residual of the matching input blocks, written back at its own point. -/
import proofs.«108163_j46162308497632_1_alg».proof.Proof.KI.Dat
import proofs.«108163_j46162308497632_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's six input arrays as plain functions of (row, column) or of the column. -/
def xA1 (c : Dev nD) : Cert.Spec.NodeArr := fun i j => V c main_v24_0 (ix2 i j)
def fA1 (c : Dev nD) : Cert.Spec.NodeArr := fun i j => V c main_arg0 (ix2 i j)
def muA1 (c : Dev nD) : Cert.Spec.Row := fun j => V c main_v33 (ix2 (0 : Fin 1) j)
def varA1 (c : Dev nD) : Cert.Spec.Row := fun j => V c main_v34 (ix2 (0 : Fin 1) j)
def gaA1 (c : Dev nD) : Cert.Spec.Row := fun j => V c main_v35 (ix2 (0 : Fin 1) j)
def beA1 (c : Dev nD) : Cert.Spec.Row := fun j => V c main_v36 (ix2 (0 : Fin 1) j)

/-- The payload at an entry: the row operands are read at row 0, the two constants are the offset word and zero. -/
theorem pay1_apply (x : Vec Ideal S5000x128 .f32) (mu var ga be : Vec Ideal S1x128 .f32) (f : Vec Ideal S5000x128 .f32)
    (p : Fin 5000) (q : Fin 128) :
    k1_pay1 x mu var ga be f (ix2 p q)
      = (f (ix2 p q) + max ((x (ix2 p q) - mu (ix2 (0 : Fin 1) q)) * Ideal.rsqrt (var (ix2 (0 : Fin 1) q) + Cert.Spec.eps) * ga (ix2 (0 : Fin 1) q) + be (ix2 (0 : Fin 1) q)) 0 : EReal) := by
  unfold k1_pay1
  simp only [shapeCast_self]
  simp only [addf_apply, maximumf_apply, mulf_apply, subf_apply, broadcast_apply, broadcastTo_1b_ab_apply]
  have hzero : (FloatOps.ofBits (F := Ideal) FTy.f32 0#32 : EReal) = 0 := Ideal.ofBits_zero_f32
  rw [hzero]
  rfl

/-- The windows' block index maps over the ten points: the three windows of 5000 rows are at block row `t`, the four
    single-row windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of the normalised array is its rows `5000 t … 5000 t + 4999`. -/
theorem xb1_apply (c : Dev nD) (t : Fin cfg1.N) (p : Fin 5000) (q : Fin 128) (i : Fin 50000) (hi : i.val = t.val * 5000 + p.val) :
    (xb1 V c t) (ix2 p q) = V c main_v24_0 (ix2 i q) := by
  obtain ⟨e0, e1, -⟩ := idx_facts1 t
  show ((cfg1.win 0).blk t).view.read (Elt Ideal) (V c (Pipeline.arrRef spec1 0)) (ix2 p q) = _
  rw [View.read_apply]
  show V c main_v24_0 (((cfg1.win 0).blk t).view.emb (ix2 p q)) = V c main_v24_0 (ix2 i q)
  congr 1
  funext a; apply Fin.ext
  match a with
  | ⟨0, _⟩ => show win1_0.index t (0 : Fin 2) * 5000 + 1 * p.val = i.val; omega
  | ⟨1, _⟩ => show win1_0.index t (1 : Fin 2) * 128 + 1 * q.val = q.val; omega

/-- Block `t` of the residual array is its rows `5000 t … 5000 t + 4999`. -/
theorem fb1_apply (c : Dev nD) (t : Fin cfg1.N) (p : Fin 5000) (q : Fin 128) (i : Fin 50000) (hi : i.val = t.val * 5000 + p.val) :
    (fb1 V c t) (ix2 p q) = V c main_arg0 (ix2 i q) := by
  obtain ⟨-, -, e0, e1, -⟩ := idx_facts1 t
  show ((cfg1.win 1).blk t).view.read (Elt Ideal) (V c (Pipeline.arrRef spec1 1)) (ix2 p q) = _
  rw [View.read_apply]
  show V c main_arg0 (((cfg1.win 1).blk t).view.emb (ix2 p q)) = V c main_arg0 (ix2 i q)
  congr 1
  funext a; apply Fin.ext
  match a with
  | ⟨0, _⟩ => show win1_1.index t (0 : Fin 2) * 5000 + 1 * p.val = i.val; omega
  | ⟨1, _⟩ => show win1_1.index t (1 : Fin 2) * 128 + 1 * q.val = q.val; omega

/-- The mean row's one block is the whole row, at every point. -/
theorem mub1_apply (c : Dev nD) (t : Fin cfg1.N) (q : Fin 128) :
    (mub1 V c t) (ix2 (0 : Fin 1) q) = V c main_v33 (ix2 (0 : Fin 1) q) := by
  obtain ⟨-, -, -, -, e2_0, e2_1, e3_0, e3_1, e4_0, e4_1, e5_0, e5_1, -⟩ := idx_facts1 t
  show ((cfg1.win 2).blk t).view.read (Elt Ideal) (V c (Pipeline.arrRef spec1 2)) (ix2 (0 : Fin 1) q) = _
  rw [View.read_apply]
  show V c main_v33 (((cfg1.win 2).blk t).view.emb (ix2 (0 : Fin 1) q)) = V c main_v33 (ix2 (0 : Fin 1) q)
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- The variance row's one block is the whole row, at every point. -/
theorem varb1_apply (c : Dev nD) (t : Fin cfg1.N) (q : Fin 128) :
    (varb1 V c t) (ix2 (0 : Fin 1) q) = V c main_v34 (ix2 (0 : Fin 1) q) := by
  obtain ⟨-, -, -, -, e2_0, e2_1, e3_0, e3_1, e4_0, e4_1, e5_0, e5_1, -⟩ := idx_facts1 t
  show ((cfg1.win 3).blk t).view.read (Elt Ideal) (V c (Pipeline.arrRef spec1 3)) (ix2 (0 : Fin 1) q) = _
  rw [View.read_apply]
  show V c main_v34 (((cfg1.win 3).blk t).view.emb (ix2 (0 : Fin 1) q)) = V c main_v34 (ix2 (0 : Fin 1) q)
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- The scale row's one block is the whole row, at every point. -/
theorem gab1_apply (c : Dev nD) (t : Fin cfg1.N) (q : Fin 128) :
    (gab1 V c t) (ix2 (0 : Fin 1) q) = V c main_v35 (ix2 (0 : Fin 1) q) := by
  obtain ⟨-, -, -, -, e2_0, e2_1, e3_0, e3_1, e4_0, e4_1, e5_0, e5_1, -⟩ := idx_facts1 t
  show ((cfg1.win 4).blk t).view.read (Elt Ideal) (V c (Pipeline.arrRef spec1 4)) (ix2 (0 : Fin 1) q) = _
  rw [View.read_apply]
  show V c main_v35 (((cfg1.win 4).blk t).view.emb (ix2 (0 : Fin 1) q)) = V c main_v35 (ix2 (0 : Fin 1) q)
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- The shift row's one block is the whole row, at every point. -/
theorem beb1_apply (c : Dev nD) (t : Fin cfg1.N) (q : Fin 128) :
    (beb1 V c t) (ix2 (0 : Fin 1) q) = V c main_v36 (ix2 (0 : Fin 1) q) := by
  obtain ⟨-, -, -, -, e2_0, e2_1, e3_0, e3_1, e4_0, e4_1, e5_0, e5_1, -⟩ := idx_facts1 t
  show ((cfg1.win 5).blk t).view.read (Elt Ideal) (V c (Pipeline.arrRef spec1 5)) (ix2 (0 : Fin 1) q) = _
  rw [View.read_apply]
  show V c main_v36 (((cfg1.win 5).blk t).view.emb (ix2 (0 : Fin 1) q)) = V c main_v36 (ix2 (0 : Fin 1) q)
  congr 1
  funext a; apply Fin.ext
  match a with
  | ⟨0, _⟩ => show win1_5.index t (0 : Fin 2) * 1 + 1 * 0 = 0; omega
  | ⟨1, _⟩ => show win1_5.index t (1 : Fin 2) * 128 + 1 * q.val = q.val; omega

/-- The whole output array as one function of the six input arrays. -/
def outA1 (c : Dev nD) : S50000x128.Idx → Elt Ideal .f32 := fun i =>
  (fA1 V c (i 0) (i 1) + max ((xA1 V c (i 0) (i 1) - muA1 V c (i 1)) * Ideal.rsqrt (varA1 V c (i 1) + Cert.Spec.eps) * gaA1 V c (i 1) + beA1 V c (i 1)) 0 : EReal)

/-- What point `t` writes back is block `t` of that function. -/
theorem flushed1_eq (c : Dev nD) (t : Fin cfg1.N) :
    (dat1 V c).flushed 6 t = ((cfg1.win 6).blk t).view.read (Elt Ideal) (outA1 V c) := by
  show (cfg1.win 6).cut (grid1.coords t) ((dat1 V c).after 6 t) = _
  rw [after1_6]
  funext j
  obtain ⟨p, q, rfl⟩ : ∃ (p : Fin 5000) (q : Fin 128), j = ix2 p q := ⟨j 0, j 1, eq_ix2 j⟩
  have hN : cfg1.N = 10 := N_1
  have ht : t.val < cfg1.N := t.isLt
  have hp : p.val < 5000 := p.isLt
  obtain ⟨-, -, -, -, -, -, -, -, -, -, -, -, e0, e1⟩ := idx_facts1 t
  rw [View.read_apply]
  have hemb : ((cfg1.win 6).blk t).view.emb (ix2 p q) = ix2 (⟨t.val * 5000 + p.val, by omega⟩ : Fin 50000) q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (xb1 V c t) (mub1 V c t) (varb1 V c t) (gab1 V c t) (beb1 V c t) (fb1 V c t) (ix2 p q) = outA1 V c (((cfg1.win 6).blk t).view.emb (ix2 p q))
  rw [hemb]
  refine (pay1_apply (xb1 V c t) (mub1 V c t) (varb1 V c t) (gab1 V c t) (beb1 V c t) (fb1 V c t) p q).trans ?_
  rw [xb1_apply V c t p q ⟨t.val * 5000 + p.val, by omega⟩ rfl, fb1_apply V c t p q ⟨t.val * 5000 + p.val, by omega⟩ rfl,
    mub1_apply V c t q, varb1_apply V c t q, gab1_apply V c t q, beb1_apply V c t q]
  rfl

/-- Row `i` is in the block of point `i / 5000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, flush1_6 t, ?_⟩
  show i ∈ ((View.whole main_v37).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The second region's output at (row, column), from its six input arrays as the region finds them. -/
theorem out1 (c : Dev nD) (i : Fin 50000) (j : Fin 128) :
    (dat1 V c).arrAt 6 cfg1.N (ix2 i j)
      = (fA1 V c i j + max ((xA1 V c i j - muA1 V c j) * Ideal.rsqrt (varA1 V c j + Cert.Spec.eps) * gaA1 V c j + beA1 V c j) 0 : EReal) := by
  have h := (dat1 V c).arrAt_eq_of_cover 6 (outA1 V c) (fun t _ => flushed1_eq V c t) (cover1)
  rw [h]
  rfl

end Cert.KernelIdeal.Hand

end
-- ==== Proof.KI.Host1.lean ====
/- The host arithmetic between the two kernel regions, read entry by entry at the ideal instance: the mean row is the
   column sums divided by the node count, the variance row is the column sums of squares divided by the node count minus
   the squared mean, and the scale and shift rows are the two arguments reshaped. -/
import proofs.«108163_j46162308497632_1_alg».proof.Proof.Gen.KernelIdeal.Launch
import proofs.«108163_j46162308497632_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (W : Valuation τ sig (Elt Ideal))

/-- The two statistics rows, the scale and the shift, as the stretch finds them. -/
def s1W : Cert.Spec.Row := fun j => W (Proc.devRef .tc main_v24_1) (ix2 (0 : Fin 1) j)
def s2W : Cert.Spec.Row := fun j => W (Proc.devRef .tc main_v24_2) (ix2 (0 : Fin 1) j)
def gaW : Cert.Spec.Row := fun j => W (Proc.devRef .tc main_arg3) (ix1 j)
def beW : Cert.Spec.Row := fun j => W (Proc.devRef .tc main_arg4) (ix1 j)

/-! ## The layout operations and the node count, read at a column -/

/-- A flat array reshaped to one row reads, at a column of the row, the flat array there. -/
private theorem row_of_flat {α : Type} (x : S128.Idx → α) (j : Fin 128) :
    shapeCast S1x128 x shapeCasts_S128_S1x128 (ix2 (0 : Fin 1) j) = x (ix1 j) :=
  shapeCast_apply x _ _ (ix1 j) (by
    rw [Shape.rowMajor_val_one, Shape.rowMajor_val_two]
    show j.val = (0 : Fin 1).val * 128 + j.val
    simp)

/-- One row reshaped to a flat array reads, at a position, the row's column there. -/
private theorem flat_of_row {α : Type} (x : S1x128.Idx → α) (j : Fin 128) :
    shapeCast S128 x shapeCasts_S1x128_S128 (ix1 j) = x (ix2 (0 : Fin 1) j) :=
  shapeCast_apply x _ _ (ix2 (0 : Fin 1) j) (by
    rw [Shape.rowMajor_val_one, Shape.rowMajor_val_two]
    show (0 : Fin 1).val * 128 + j.val = j.val
    simp)

/-- The node count as a flat array: the scalar word broadcast to every position. -/
private abbrev countFlat : FVec Ideal S128 .f32 :=
  broadcastInDim S128 ![] bcast_S_S128 (constant (F := Ideal) S_ .f32 0x47435000#32)

/-- A statistics row flattened and divided, position by position, by the node count. -/
private abbrev perNode (x : FVec Ideal S1x128 .f32) : FVec Ideal S128 .f32 :=
  Host.divf (F := Ideal) (shapeCast S128 x shapeCasts_S1x128_S128) countFlat

/-- At a position it is the row's column there divided by the node count. -/
private theorem perNode_apply (x : FVec Ideal S1x128 .f32) (j : Fin 128) :
    perNode x (ix1 j) = Ideal.div (x (ix2 (0 : Fin 1) j)) Cert.Spec.cN := by
  show Ideal.div (shapeCast S128 x shapeCasts_S1x128_S128 (ix1 j)) (Ideal.ofBits .f32 0x47435000#32) = _
  rw [flat_of_row]; rfl

theorem host1_mu (j : Fin 128) :
    StableHlo.after hostOps1 W (Proc.devRef .tc main_v33) (ix2 (0 : Fin 1) j) = (Ideal.div (s1W W j) Cert.Spec.cN : EReal) := by
  after_results
  show shapeCast S1x128 (perNode (W (Proc.devRef .tc main_v24_1))) shapeCasts_S128_S1x128 (ix2 (0 : Fin 1) j) = _
  rw [row_of_flat, perNode_apply]; rfl

theorem host1_var (j : Fin 128) :
    StableHlo.after hostOps1 W (Proc.devRef .tc main_v34) (ix2 (0 : Fin 1) j)
      = (Ideal.div (s2W W j) Cert.Spec.cN - Ideal.div (s1W W j) Cert.Spec.cN * Ideal.div (s1W W j) Cert.Spec.cN : EReal) := by
  after_results
  show shapeCast S1x128 (subf (perNode (W (Proc.devRef .tc main_v24_2)))
      (mulf (perNode (W (Proc.devRef .tc main_v24_1))) (perNode (W (Proc.devRef .tc main_v24_1)))))
    shapeCasts_S128_S1x128 (ix2 (0 : Fin 1) j) = _
  rw [row_of_flat, subf_apply, mulf_apply, perNode_apply, perNode_apply]; rfl

theorem host1_ga (j : Fin 128) :
    StableHlo.after hostOps1 W (Proc.devRef .tc main_v35) (ix2 (0 : Fin 1) j) = (gaW W j : EReal) := by
  after_results
  show shapeCast S1x128 (W (Proc.devRef .tc main_arg3)) shapeCasts_S128_S1x128 (ix2 (0 : Fin 1) j) = _
  rw [row_of_flat]; rfl

theorem host1_be (j : Fin 128) :
    StableHlo.after hostOps1 W (Proc.devRef .tc main_v36) (ix2 (0 : Fin 1) j) = (beW W j : EReal) := by
  after_results
  show shapeCast S1x128 (W (Proc.devRef .tc main_arg4)) shapeCasts_S128_S1x128 (ix2 (0 : Fin 1) j) = _
  rw [row_of_flat]; rfl

end Cert.KernelIdeal.Hand

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.HAgg.lean ====
/- The aggregated features: both programs compute them from the node features and the two edge-index arrays by the
   same host operations (a gather of source rows, two segment sums over the destinations, a quotient by the clamped
   degree, masked where the degree is zero). The kernel's buffer at the first region's entry holds the reference's
   term; and over finite node features every entry is finite. -/
import proofs.«108163_j46162308497632_1_alg».proof.Proof.Gen.KernelIdeal.Launch
import proofs.«108163_j46162308497632_1_alg».proof.Proof.RefRead
import proofs.«108163_j46162308497632_1_alg».proof.Proof.LibSegmentSum
import proofs.«108163_j46162308497632_1_alg».proof.Proof.Spec
import Idealize.ShloMosaic.Lib.StableHlo.Run
import Idealize.ShloMosaic.Lib.ValueIdx
import Idealize.ShloMosaic.Lib.Pipeline.Value

set_option maxRecDepth 16384

noncomputable section

namespace Cert.HAgg

open Idealize.ShloMosaic Idealize.ShloMosaic.TcCoe Idealize.SL.Sem Idealize.ShloMosaic.ValueIdx

section
open Cert.KernelIdeal Cert.KernelIdeal.Gen
variable {F : FTy → Type} [FloatOps F]

set_option maxHeartbeats 4000000 in
/-- The buffer the first region stages as its first operand holds the reference's aggregated features of the launch arguments. -/
theorem hagg_eq (m : (ℓ : Loc nD τ sig) → Buf (Elt F) ℓ) (c : Dev nD) :
    (StableHlo.after hostOps0_2 (StableHlo.after hostOps0_1 (StableHlo.after hostOps0 (fun b => m (c, b))))) (Proc.devRef .tc main_v22)
      = Cert.ReferenceIdeal.ReadP.val_main_v22 (F := F) (m ((c.tc : Thread nD τ).loc main_arg0)) (m ((c.tc : Thread nD τ).loc main_arg5)) (m ((c.tc : Thread nD τ).loc main_arg6)) := by
  -- each operation's result read at its own buffer; the called function's typed references are identity casts
  after_results_simp
  simp only [StableHlo.TRef.ofBuf, StableHlo.TRef.toBuf, cast_eq, id]
  rfl

set_option maxHeartbeats 4000000 in
/-- The bias row the first region stages is the bias argument, reshaped. -/
theorem bias_eq (m : (ℓ : Loc nD τ sig) → Buf (Elt F) ℓ) (c : Dev nD) (j : Fin 128) :
    (StableHlo.after hostOps0_2 (StableHlo.after hostOps0_1 (StableHlo.after hostOps0 (fun b => m (c, b))))) (Proc.devRef .tc main_v23) (ix2 (0 : Fin 1) j)
      = m ((c.tc : Thread nD τ).loc main_arg2) (ix1 j) := by
  after_results_simp
  -- a reshape keeps the row-major position: 0 * 128 + j = j
  refine shapeCast_apply (s := S128) (t := S1x128) _ shapeCasts_S128_S1x128 (ix2 (0 : Fin 1) j) (ix1 j) ?_
  rw [Shape.rowMajor_val_two, Shape.rowMajor_val_one]
  show j.val = 0 * 128 + j.val
  omega
end

section Finite
open Cert.ReferenceIdeal Cert.ReferenceIdeal.ReadP
open scoped BigOperators

/-- A finite sum of reals, taken in the extended reals, is a real. -/
private theorem sum_coe_real {ι : Type} (s : Finset ι) (f : ι → EReal) (h : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    obtain ⟨r1, h1⟩ := h a (Finset.mem_insert_self a s)
    obtain ⟨r2, h2⟩ := ih (fun e he => h e (Finset.mem_insert_of_mem he))
    exact ⟨r1 + r2, by rw [Finset.sum_insert ha, h1, h2, EReal.coe_add]⟩

/-- The word of 1.0 is the real one. -/
private theorem ofBits_one_f32 : Ideal.ofBits .f32 0x3F800000#32 = ((1 : ℝ) : EReal) := by
  -- sign bit clear, exponent field 127 (the bias), fraction field 0: (2^23 + 0) * 2^(127 - 127 - 23) = 1
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = _
  unfold Ideal.ieee
  simp only [hneg, hex, hfr]
  norm_num

/-- The degree of a node is a real. -/
private theorem deg_real (x6 : (⟨S800000, .i32⟩ : BufTy).Contents (Elt Ideal)) (k : S50000.Idx) :
    ∃ r : ℝ, val_main_v13 (F := Ideal) x6 k = (r : EReal) := by
  rw [eq_ix1 k]
  have e := Cert.LibSegmentSum.scatterAdd_seg1 scatter_S50000_S800000x1_S800000_n_0_0_1 rfl rfl rfl rfl
    (val_main_v11 (F := Ideal)) (val_main_v12 (F := Ideal) x6) (val_main_v10 (F := Ideal)) (k 0)
  obtain ⟨s, hs⟩ := sum_coe_real (Finset.univ.filter (fun e : Fin 800000 => (val_main_v12 (F := Ideal) x6 (ix2 e 0)).toInt = ((k 0).val : ℤ)))
    (fun e => val_main_v10 (F := Ideal) (ix1 e)) (fun e _ => ⟨1, by
      rw [val_main_v10_apply, val_main_cst_1_apply]; exact ofBits_one_f32⟩)
  refine ⟨s, e.trans ?_⟩
  rw [hs, val_main_v11_apply, val_main_cst_2_apply]
  show Ideal.ofBits .f32 0x00000000#32 + (s : EReal) = s
  rw [Ideal.ofBits_zero_f32, zero_add]

/-- A segment sum of finite rows is finite. -/
private theorem agg_real (x0 : (⟨S50000x128, .f32⟩ : BufTy).Contents (Elt Ideal))
    (x5 x6 : (⟨S800000, .i32⟩ : BufTy).Contents (Elt Ideal)) (h0 : ∀ i, ∃ r : ℝ, x0 i = (r : EReal)) (i : S50000x128.Idx) :
    ∃ r : ℝ, val_main_v9 (F := Ideal) x0 x5 x6 i = (r : EReal) := by
  rw [eq_ix2 i]
  have e := Cert.LibSegmentSum.scatterAdd_segRows scatter_S50000x128_S800000x1_S800000x128_1_0_0_1 rfl rfl rfl rfl
    (val_main_v7 (F := Ideal)) (val_main_v8 (F := Ideal) x6) (val_main_v6 (F := Ideal) x0 x5) (i 0) (i 1)
  obtain ⟨s, hs⟩ := sum_coe_real (Finset.univ.filter (fun e : Fin 800000 => (val_main_v8 (F := Ideal) x6 (ix2 e 0)).toInt = ((i 0).val : ℤ)))
    (fun e => val_main_v6 (F := Ideal) x0 x5 (ix2 e (i 1))) (fun e _ => by
      have g := Cert.LibSegmentSum.gather_rows gather_S50000x128_S800000x1_S800000x128_1_0_n_n_0_1_1128 rfl rfl rfl rfl rfl rfl rfl
        x0 (val_main_v5 (F := Ideal) x5) e (i 1) (by decide)
      obtain ⟨r, hr⟩ := h0 (ix2 ⟨min (val_main_v5 (F := Ideal) x5 (ix2 e 0)).toInt.toNat (50000 - 1), by omega⟩ (i 1))
      exact ⟨r, g.trans hr⟩)
  refine ⟨s, e.trans ?_⟩
  rw [hs, val_main_v7_apply, val_main_cst_apply]
  show Ideal.ofBits .f32 0x00000000#32 + (s : EReal) = s
  rw [Ideal.ofBits_zero_f32, zero_add]

/-- Over finite node features the aggregated features are finite: a segment sum of finite rows, divided by a degree clamped to at least one, or zero. -/
theorem hagg_finite (x0 : (⟨Cert.ReferenceIdeal.S50000x128, .f32⟩ : BufTy).Contents (Elt Ideal))
    (x5 x6 : (⟨Cert.ReferenceIdeal.S800000, .i32⟩ : BufTy).Contents (Elt Ideal)) (h0 : ∀ i, ∃ r : ℝ, x0 i = (r : EReal)) :
    ∀ i, ∃ r : ℝ, Cert.ReferenceIdeal.ReadP.val_main_v22 (F := Ideal) x0 x5 x6 i = (r : EReal) := by
  intro i
  rw [val_main_v22_apply]
  -- the masked-out branch: the zero word
  have hz : ∃ r : ℝ, val_main_call0_v2 (F := Ideal) i = (r : EReal) := by
    refine ⟨0, ?_⟩
    rw [val_main_call0_v2_apply, val_main_call0_v0_apply, val_main_cst_5_apply]
    exact Ideal.ofBits_zero_f32
  -- the quotient: a real over a real that is at least one
  have hq : ∃ r : ℝ, val_main_v21 (F := Ideal) x0 x5 x6 i = (r : EReal) := by
    rw [val_main_v21_apply, val_main_v20_apply, val_main_v19_apply, val_main_v18_apply, val_main_v17_apply, val_main_cst_4_apply]
    obtain ⟨a, ha⟩ := agg_real x0 x5 x6 h0 i
    obtain ⟨d, hd⟩ := deg_real x6 (idx_main_v19 (idx_main_v20 i))
    rw [ha, hd]
    show ∃ r : ℝ, Ideal.div (a : EReal) (max (d : EReal) (Ideal.ofBits .f32 0x3F800000#32)) = (r : EReal)
    rw [ofBits_one_f32]
    -- the larger of a real and one is a real that is at least one
    obtain ⟨b, hb, hmax⟩ : ∃ b : ℝ, b ≠ 0 ∧ max (d : EReal) ((1 : ℝ) : EReal) = (b : EReal) := by
      rcases le_total d 1 with h | h
      · exact ⟨1, one_ne_zero, max_eq_right (EReal.coe_le_coe_iff.mpr h)⟩
      · exact ⟨d, fun h0 => by rw [h0] at h; linarith, max_eq_left (EReal.coe_le_coe_iff.mpr h)⟩
    rw [hmax, Ideal.div_coe hb]
    exact ⟨a * (1 / b), (EReal.coe_mul _ _).symm⟩
  unfold Scalar.select
  split
  · exact hq
  · exact hz
end Finite

end Cert.HAgg

end
-- ==== Proof.KI.KVal.lean ====
/- The kernel's result, entry by entry, at the ideal instance: the second region's output over the first region's three
   outputs and the host arithmetic between them is the specification's kernel-side formula of the launch arguments. -/
import proofs.«108163_j46162308497632_1_alg».proof.Proof.KI.Run
import proofs.«108163_j46162308497632_1_alg».proof.Proof.KI.KVal0
import proofs.«108163_j46162308497632_1_alg».proof.Proof.KI.KVal1
import proofs.«108163_j46162308497632_1_alg».proof.Proof.KI.Host1
import proofs.«108163_j46162308497632_1_alg».proof.Proof.HAgg
import proofs.«108163_j46162308497632_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The launch arguments as plain functions: the aggregated features (as the reference's host term computes them from the
    node features and the edge indices), the weights, the bias, the scale, the shift and the node features. -/
def hK (c : Dev nD) : Cert.Spec.NodeArr := fun i k =>
  Cert.ReferenceIdeal.ReadP.val_main_v22 (F := Ideal) (m ((c.tc : Thread nD τ).loc main_arg0)) (m ((c.tc : Thread nD τ).loc main_arg5)) (m ((c.tc : Thread nD τ).loc main_arg6)) (ix2 i k)
def wK (c : Dev nD) : Cert.Spec.WMat := fun j k => m ((c.tc : Thread nD τ).loc main_arg1) (ix2 j k)
def bK (c : Dev nD) : Cert.Spec.Row := fun j => m ((c.tc : Thread nD τ).loc main_arg2) (ix1 j)
def gaK (c : Dev nD) : Cert.Spec.Row := fun j => m ((c.tc : Thread nD τ).loc main_arg3) (ix1 j)
def beK (c : Dev nD) : Cert.Spec.Row := fun j => m ((c.tc : Thread nD τ).loc main_arg4) (ix1 j)
def fK (c : Dev nD) : Cert.Spec.NodeArr := fun i j => m ((c.tc : Thread nD τ).loc main_arg0) (ix2 i j)

/-! ## The first region's inputs are the arguments' -/

theorem T3_main_arg1 (c : Dev nD) : T3 m c main_arg1 = m ((c.tc : Thread nD τ).loc main_arg1) :=
  calc U3 m c (Proc.devRef .tc main_arg1)
    _ = U2 m c (Proc.devRef .tc main_arg1) := StableHlo.after_of_writes_sub hostOps0_2 _ hostOps0_2_writes (by decide)
    _ = U1 m c (Proc.devRef .tc main_arg1) := StableHlo.after_of_writes_sub hostOps0_1 _ hostOps0_1_writes (by decide)
    _ = U0 m c (Proc.devRef .tc main_arg1) := StableHlo.after_of_writes_sub hostOps0 _ hostOps0_writes (by decide)
    _ = m ((c : Thread nD τ).loc main_arg1) := rfl

theorem hA_eq (c : Dev nD) : hA (T3 m) c = hK m c := by
  funext i k
  exact congrFun (Cert.HAgg.hagg_eq m c) (ix2 i k)

theorem wA_eq (c : Dev nD) : wA (T3 m) c = wK m c := by
  funext j k
  exact congrFun (T3_main_arg1 m c) (ix2 j k)

theorem bA_eq (c : Dev nD) : bA (T3 m) c = bK m c := by
  funext j
  exact Cert.HAgg.bias_eq m c j

/-! ## The second region's inputs -/

/-- The linear-layer array the second region reads is the first region's first output. -/
theorem T5_v24_0 (c : Dev nD) : T5 m c main_v24_0 = (dat0 (T3 m) c).arrAt 3 cfg0.N :=
  (StableHlo.after_of_writes_sub hostOps1 _ hostOps1_writes (by decide)).trans (U4_arr m c 3)

theorem T5_main_arg0 (c : Dev nD) : T5 m c main_arg0 = m ((c.tc : Thread nD τ).loc main_arg0) :=
  calc U5 m c (Proc.devRef .tc main_arg0)
    _ = U4 m c (Proc.devRef .tc main_arg0) := StableHlo.after_of_writes_sub hostOps1 _ hostOps1_writes (by decide)
    _ = U3 m c (Proc.devRef .tc main_arg0) := U4_of_ne m c main_arg0 (by decide)
    _ = U2 m c (Proc.devRef .tc main_arg0) := StableHlo.after_of_writes_sub hostOps0_2 _ hostOps0_2_writes (by decide)
    _ = U1 m c (Proc.devRef .tc main_arg0) := StableHlo.after_of_writes_sub hostOps0_1 _ hostOps0_1_writes (by decide)
    _ = U0 m c (Proc.devRef .tc main_arg0) := StableHlo.after_of_writes_sub hostOps0 _ hostOps0_writes (by decide)
    _ = m ((c : Thread nD τ).loc main_arg0) := rfl

theorem U4_main_arg3 (c : Dev nD) : U4 m c (Proc.devRef .tc main_arg3) = m ((c.tc : Thread nD τ).loc main_arg3) :=
  calc U4 m c (Proc.devRef .tc main_arg3)
    _ = U3 m c (Proc.devRef .tc main_arg3) := U4_of_ne m c main_arg3 (by decide)
    _ = U2 m c (Proc.devRef .tc main_arg3) := StableHlo.after_of_writes_sub hostOps0_2 _ hostOps0_2_writes (by decide)
    _ = U1 m c (Proc.devRef .tc main_arg3) := StableHlo.after_of_writes_sub hostOps0_1 _ hostOps0_1_writes (by decide)
    _ = U0 m c (Proc.devRef .tc main_arg3) := StableHlo.after_of_writes_sub hostOps0 _ hostOps0_writes (by decide)
    _ = m ((c : Thread nD τ).loc main_arg3) := rfl

theorem U4_main_arg4 (c : Dev nD) : U4 m c (Proc.devRef .tc main_arg4) = m ((c.tc : Thread nD τ).loc main_arg4) :=
  calc U4 m c (Proc.devRef .tc main_arg4)
    _ = U3 m c (Proc.devRef .tc main_arg4) := U4_of_ne m c main_arg4 (by decide)
    _ = U2 m c (Proc.devRef .tc main_arg4) := StableHlo.after_of_writes_sub hostOps0_2 _ hostOps0_2_writes (by decide)
    _ = U1 m c (Proc.devRef .tc main_arg4) := StableHlo.after_of_writes_sub hostOps0_1 _ hostOps0_1_writes (by decide)
    _ = U0 m c (Proc.devRef .tc main_arg4) := StableHlo.after_of_writes_sub hostOps0 _ hostOps0_writes (by decide)
    _ = m ((c : Thread nD τ).loc main_arg4) := rfl

/-- The linear layer of the launch arguments. -/
abbrev linK (c : Dev nD) : Cert.Spec.NodeArr := Cert.Spec.lin (hK m c) (wK m c) (bK m c)

theorem x_eq (c : Dev nD) (i : Fin 50000) (j : Fin 128) : xA1 (T5 m) c i j = linK m c i j := by
  have h := out0_lin (T3 m) c i j
  rw [hA_eq, wA_eq, bA_eq] at h
  exact (congrFun (T5_v24_0 m c) (ix2 i j)).trans h

theorem s1_eq (c : Dev nD) (j : Fin 128) : s1W (U4 m c) j = Cert.Spec.S1 (linK m c) j := by
  have h := out0_sum (T3 m) c j
  rw [hA_eq, wA_eq, bA_eq] at h
  exact (congrFun (U4_arr m c 4) (ix2 (0 : Fin 1) j)).trans h

theorem s2_eq (c : Dev nD) (j : Fin 128) : s2W (U4 m c) j = Cert.Spec.S2 (linK m c) j := by
  have h := out0_sumsq (T3 m) c j
  rw [hA_eq, wA_eq, bA_eq] at h
  exact (congrFun (U4_arr m c 5) (ix2 (0 : Fin 1) j)).trans h

theorem mu_eq (c : Dev nD) (j : Fin 128) : muA1 (T5 m) c j = Cert.Spec.mu (linK m c) j := by
  have h := host1_mu (U4 m c) j
  rw [s1_eq] at h
  exact h

theorem var_eq (c : Dev nD) (j : Fin 128) : varA1 (T5 m) c j = Cert.Spec.kVar (linK m c) j := by
  have h := host1_var (U4 m c) j
  rw [s1_eq, s2_eq] at h
  exact h

theorem ga_eq (c : Dev nD) (j : Fin 128) : gaA1 (T5 m) c j = gaK m c j :=
  (host1_ga (U4 m c) j).trans (congrFun (U4_main_arg3 m c) (ix1 j))

theorem be_eq (c : Dev nD) (j : Fin 128) : beA1 (T5 m) c j = beK m c j :=
  (host1_be (U4 m c) j).trans (congrFun (U4_main_arg4 m c) (ix1 j))

theorem f_eq (c : Dev nD) (i : Fin 50000) (j : Fin 128) : fA1 (T5 m) c i j = fK m c i j :=
  congrFun (T5_main_arg0 m c) (ix2 i j)

/-- THE KERNEL'S VALUE at (node, feature). -/
theorem kernel_value (c : Dev nD) (i : Fin 50000) (j : Fin 128) :
    (dat1 (T5 m) c).arrAt 6 cfg1.N (ix2 i j)
      = Cert.Spec.kOut (linK m c) (gaK m c) (beK m c) (fK m c) i j := by
  rw [out1 (T5 m) c i j, x_eq, mu_eq, var_eq, ga_eq, be_eq, f_eq]
  rfl

end Cert.KernelIdeal.Hand

end
-- ==== Proof.RefVal.lean ====
/- The reference's result read entry by entry: the linear layer of the aggregated features, its column mean and its
   variance as the mean of squared deviations, the rows normalised by the square root, scaled, shifted, rectified and
   added to the residual. -/
import proofs.«108163_j46162308497632_1_alg».proof.Proof.RefRun
import proofs.«108163_j46162308497632_1_alg».proof.Proof.RefRead
import proofs.«108163_j46162308497632_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.RefValue

open Cert.ReferenceIdeal Cert.ReferenceIdeal.ReadP Idealize.ShloMosaic Idealize.ShloMosaic.ValueIdx

/-! ### The composed index maps at coordinates -/
private theorem e26 (i : Fin 50000) (j : Fin 128) : idx_main_v26 (ix2 i j) = ix2 (⟨0, Nat.one_pos⟩ : Fin 1) j :=
  funext fun a => Fin.ext (by match a with | ⟨0, _⟩ => rfl | ⟨1, _⟩ => rfl)
private theorem e32 (i : Fin 50000) (j : Fin 128) : idx_main_v32 (ix2 i j) = ix2 (⟨0, Nat.one_pos⟩ : Fin 1) j :=
  funext fun a => Fin.ext (by match a with | ⟨0, _⟩ => rfl | ⟨1, _⟩ => rfl)
private theorem e39 (i : Fin 50000) (j : Fin 128) : idx_main_v39 (ix2 i j) = ix2 (⟨0, Nat.one_pos⟩ : Fin 1) j :=
  funext fun a => Fin.ext (by match a with | ⟨0, _⟩ => rfl | ⟨1, _⟩ => rfl)
private theorem e45 (i : Fin 50000) (j : Fin 128) : idx_main_v45 (ix2 i j) = ix2 (⟨0, Nat.one_pos⟩ : Fin 1) j :=
  funext fun a => Fin.ext (by match a with | ⟨0, _⟩ => rfl | ⟨1, _⟩ => rfl)
private theorem e48 (i : Fin 50000) (j : Fin 128) : idx_main_v48 (ix2 i j) = ix2 (⟨0, Nat.one_pos⟩ : Fin 1) j :=
  funext fun a => Fin.ext (by match a with | ⟨0, _⟩ => rfl | ⟨1, _⟩ => rfl)
private theorem e51 (i : Fin 50000) (j : Fin 128) : idx_main_v51 (ix2 i j) = ix2 (⟨0, Nat.one_pos⟩ : Fin 1) j :=
  funext fun a => Fin.ext (by match a with | ⟨0, _⟩ => rfl | ⟨1, _⟩ => rfl)
private theorem e25 (z : Fin 1) (j : Fin 128) : idx_main_v25 (ix2 z j) = ix1 j :=
  funext fun a => Fin.ext (by match a with | ⟨0, _⟩ => rfl)
private theorem e31 (z : Fin 1) (j : Fin 128) : idx_main_v31 (ix2 z j) = ix1 j :=
  funext fun a => Fin.ext (by match a with | ⟨0, _⟩ => rfl)
private theorem e38 (z : Fin 1) (j : Fin 128) : idx_main_v38 (ix2 z j) = ix1 j :=
  funext fun a => Fin.ext (by match a with | ⟨0, _⟩ => rfl)
private theorem e44 (z : Fin 1) (j : Fin 128) : idx_main_v44 (ix2 z j) = ix1 j :=
  funext fun a => Fin.ext (by match a with | ⟨0, _⟩ => rfl)
private theorem e47 (z : Fin 1) (j : Fin 128) : idx_main_v47 (ix2 z j) = ix1 j :=
  funext fun a => Fin.ext (by match a with | ⟨0, _⟩ => rfl)
private theorem e50 (z : Fin 1) (j : Fin 128) : idx_main_v50 (ix2 z j) = ix1 j :=
  funext fun a => Fin.ext (by match a with | ⟨0, _⟩ => rfl)
private theorem e28 (j : Fin 128) (k : Fin 50000) : idx_main_v28 (ix1 j) k = ix2 k j :=
  funext fun a => Fin.ext (by match a with | ⟨0, _⟩ => rfl | ⟨1, _⟩ => rfl)
private theorem e35 (j : Fin 128) (k : Fin 50000) : idx_main_v35 (ix1 j) k = ix2 k j :=
  funext fun a => Fin.ext (by match a with | ⟨0, _⟩ => rfl | ⟨1, _⟩ => rfl)
private theorem el24 (i : Fin 50000) (j k : Fin 128) : lidx_main_v24 (ix2 i j) k = ix2 i k :=
  funext fun a => Fin.ext (by match a with | ⟨0, _⟩ => rfl | ⟨1, _⟩ => rfl)
private theorem er24 (i : Fin 50000) (j k : Fin 128) : ridx_main_v24 (ix2 i j) k = ix2 k j :=
  funext fun a => Fin.ext (by match a with | ⟨0, _⟩ => rfl | ⟨1, _⟩ => rfl)
private theorem e23 (k j : Fin 128) : idx_main_v23 (ix2 k j) = ix2 j k :=
  funext fun a => Fin.ext (by match a with | ⟨0, _⟩ => rfl | ⟨1, _⟩ => rfl)

section Stages

variable (x0 : (⟨S50000x128, .f32⟩ : BufTy).Contents (Elt Ideal)) (x1 : (⟨S128x128, .f32⟩ : BufTy).Contents (Elt Ideal))
  (x2 x3 x4 : (⟨S128, .f32⟩ : BufTy).Contents (Elt Ideal)) (x5 x6 : (⟨S800000, .i32⟩ : BufTy).Contents (Elt Ideal))

/-- The linear layer of the aggregated features, as an array over (node, feature). -/
private abbrev linR : Cert.Spec.NodeArr :=
  Cert.Spec.lin (fun i k => val_main_v22 (F := Ideal) x0 x5 x6 (ix2 i k)) (fun j k => x1 (ix2 j k)) (fun j => x2 (ix1 j))

/-- The biased product at (i, j) is the linear layer there. -/
private theorem v27_at (i : Fin 50000) (j : Fin 128) :
    val_main_v27 (F := Ideal) x0 x1 x2 x5 x6 (ix2 i j) = linR x0 x1 x2 x5 x6 i j := by
  rw [val_main_v27_apply, val_main_v24_apply, val_main_v26_apply, e26, val_main_v25_apply, e25]
  simp only [val_main_v23_apply, el24, er24, e23, Ideal.addf_def]
  rfl

/-- The column sum. -/
private theorem v28_at (j : Fin 128) :
    val_main_v28 (F := Ideal) x0 x1 x2 x5 x6 (ix1 j) = Cert.Spec.S1 (linR x0 x1 x2 x5 x6) j := by
  rw [val_main_v28_apply, val_main_cst_6_apply, Ideal.ofBits_def, Ideal.ofBits_zero_f32, zero_add]
  unfold Cert.Spec.S1
  refine Finset.sum_congr rfl fun k _ => ?_
  rw [e28, v27_at]

/-- The column mean. -/
private theorem v30_at (j : Fin 128) :
    val_main_v30 (F := Ideal) x0 x1 x2 x5 x6 (ix1 j) = Cert.Spec.mu (linR x0 x1 x2 x5 x6) j := by
  rw [val_main_v30_apply, v28_at, val_main_v29_apply, val_main_cst_7_apply, Ideal.hostDivf_def, Ideal.ofBits_def]
  unfold Cert.Spec.mu Cert.Spec.cN
  rfl

/-- The deviation from the column mean, as the variance reads it. -/
private theorem v33_at (i : Fin 50000) (j : Fin 128) :
    val_main_v33 (F := Ideal) x0 x1 x2 x5 x6 (ix2 i j) = linR x0 x1 x2 x5 x6 i j - Cert.Spec.mu (linR x0 x1 x2 x5 x6) j := by
  rw [val_main_v33_apply, v27_at, val_main_v32_apply, e32, val_main_v31_apply, e31, v30_at, Ideal.subf_def]

/-- The deviation from the column mean, as the normalisation reads it. -/
private theorem v40_at (i : Fin 50000) (j : Fin 128) :
    val_main_v40 (F := Ideal) x0 x1 x2 x5 x6 (ix2 i j) = linR x0 x1 x2 x5 x6 i j - Cert.Spec.mu (linR x0 x1 x2 x5 x6) j := by
  rw [val_main_v40_apply, v27_at, val_main_v39_apply, e39, val_main_v38_apply, e38, v30_at, Ideal.subf_def]

/-- The sum of the squared deviations down a column. -/
private theorem v35_at (j : Fin 128) :
    val_main_v35 (F := Ideal) x0 x1 x2 x5 x6 (ix1 j)
      = ∑ i : Fin 50000, (linR x0 x1 x2 x5 x6 i j - Cert.Spec.mu (linR x0 x1 x2 x5 x6) j) * (linR x0 x1 x2 x5 x6 i j - Cert.Spec.mu (linR x0 x1 x2 x5 x6) j) := by
  rw [val_main_v35_apply, val_main_cst_8_apply, Ideal.ofBits_def, Ideal.ofBits_zero_f32, zero_add]
  refine Finset.sum_congr rfl fun k _ => ?_
  rw [e35, val_main_v34_apply, v33_at, Ideal.mulf_def]

/-- The variance: the mean of the squared deviations. -/
private theorem v37_at (j : Fin 128) :
    val_main_v37 (F := Ideal) x0 x1 x2 x5 x6 (ix1 j) = Cert.Spec.rVar (linR x0 x1 x2 x5 x6) j := by
  rw [val_main_v37_apply, v35_at, val_main_v36_apply, val_main_cst_9_apply, Ideal.hostDivf_def, Ideal.ofBits_def]
  unfold Cert.Spec.rVar Cert.Spec.cN
  rfl

/-- The square root of the offset variance. -/
private theorem v43_at (j : Fin 128) :
    val_main_v43 (F := Ideal) x0 x1 x2 x5 x6 (ix1 j) = Ideal.sqrt (Cert.Spec.rVar (linR x0 x1 x2 x5 x6) j + Cert.Spec.eps) := by
  rw [val_main_v43_apply, val_main_v42_apply, v37_at, val_main_v41_apply, val_main_cst_10_apply,
    Ideal.hostUnary_sqrt_def, Ideal.addf_def, Ideal.ofBits_def]
  unfold Cert.Spec.eps
  rfl

/-- The normalised entry. -/
private theorem v46_at (i : Fin 50000) (j : Fin 128) :
    val_main_v46 (F := Ideal) x0 x1 x2 x5 x6 (ix2 i j)
      = Ideal.div (linR x0 x1 x2 x5 x6 i j - Cert.Spec.mu (linR x0 x1 x2 x5 x6) j) (Ideal.sqrt (Cert.Spec.rVar (linR x0 x1 x2 x5 x6) j + Cert.Spec.eps)) := by
  rw [val_main_v46_apply, v40_at, val_main_v45_apply, e45, val_main_v44_apply, e44, v43_at, Ideal.hostDivf_def]

/-- Scaled, shifted and rectified. -/
private theorem v53_at (i : Fin 50000) (j : Fin 128) :
    val_main_v53 (F := Ideal) x0 x1 x2 x3 x4 x5 x6 (ix2 i j)
      = max (Ideal.div (linR x0 x1 x2 x5 x6 i j - Cert.Spec.mu (linR x0 x1 x2 x5 x6) j) (Ideal.sqrt (Cert.Spec.rVar (linR x0 x1 x2 x5 x6) j + Cert.Spec.eps))
          * x3 (ix1 j) + x4 (ix1 j)) 0 := by
  rw [val_main_v53_apply, val_main_v52_apply, val_main_v49_apply, v46_at, val_main_v48_apply, e48, val_main_v47_apply, e47,
    val_main_v51_apply, e51, val_main_v50_apply, e50, val_main_call1_v0_apply, val_main_call1_cst_apply,
    Ideal.ofBits_def, Ideal.ofBits_zero_f32, Ideal.maximumf_def, Ideal.addf_def, Ideal.mulf_def]

end Stages

/-- The reference's result at (node `i`, feature `j`), over the aggregated features as the reference computes them. -/
theorem ref_value (x0 : (⟨S50000x128, .f32⟩ : BufTy).Contents (Elt Ideal)) (x1 : (⟨S128x128, .f32⟩ : BufTy).Contents (Elt Ideal))
    (x2 x3 x4 : (⟨S128, .f32⟩ : BufTy).Contents (Elt Ideal)) (x5 x6 : (⟨S800000, .i32⟩ : BufTy).Contents (Elt Ideal))
    (i : Fin 50000) (j : Fin 128) :
    val_main_v54 (F := Ideal) x0 x1 x2 x3 x4 x5 x6 (ix2 i j)
      = Cert.Spec.rOut (Cert.Spec.lin (fun i k => val_main_v22 (F := Ideal) x0 x5 x6 (ix2 i k)) (fun j k => x1 (ix2 j k)) (fun j => x2 (ix1 j)))
          (fun j => x3 (ix1 j)) (fun j => x4 (ix1 j)) (fun i j => x0 (ix2 i j)) i j := by
  rw [val_main_v54_apply, v53_at, Ideal.addf_def]
  rfl

end Cert.RefValue

end
-- ==== Proof.PreFin.lean ====
/- The precondition read back: where the printed predicate "every float input is finite" is all ones, every entry of
   the node features, of the weights and of the bias is a real number. -/
import proofs.«108163_j46162308497632_1_alg».proof.Proof.Gen.Pre_finite_inputs
import Idealize.ShloMosaic.PureOps.Ideal
import Idealize.ShloMosaic.Lib.ReduceAll
import Idealize.ShloMosaic.Lib.ValueIdx

noncomputable section

namespace Cert.PreFin

open Idealize.ShloMosaic Cert.Pre_finite_inputs

/-- The rank-0 shape has one index. -/
private instance : Subsingleton S_.Idx := ⟨fun a b => funext fun d => d.elim0⟩

/-- An extended real whose absolute value max x (-x) lies below ⊤ is a real: |⊥| = |⊤| = ⊤. -/
private theorem real_of_abs_lt_top (x : EReal) (h : max x (-x) < ⊤) : ∃ r : ℝ, x = (r : EReal) := by
  induction x using EReal.rec with
  | bot => simp at h
  | coe r => exact ⟨r, rfl⟩
  | top => simp at h

/-- On one value: the test |x| < +∞ being 1 says x is a real. -/
private theorem elem_finite (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · simp [hlt] at h

/-- One input, at any shape: where the conjunction over all axes of |x| < +∞ is 1, every entry of x is a real. -/
private theorem all_finite {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant S_ .f32 0x7F800000#32)))
      init hr hu j = 1#1)
    (i : s.Idx) : ∃ r : ℝ, x i = (r : EReal) :=
  elem_finite (x i) (Host.reduce_andi_all _ init hr hu j e i)

/-- Finite node features, weights and bias, from the printed precondition at the ideal instance. -/
theorem finite_of_pre [Cert.Pre_finite_inputs.Facts] (x0 : FVec Ideal S50000x128 .f32) (x1 : FVec Ideal S128x128 .f32) (x2 x3 x4 : FVec Ideal S128 .f32)
    (x5 x6 : IVec S800000 32) (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn, fn_part1] at h0
  obtain ⟨h1, _⟩ := IntOp.andi_eq_one.1 h0
  obtain ⟨h2, _⟩ := IntOp.andi_eq_one.1 h1
  obtain ⟨h3, e2⟩ := IntOp.andi_eq_one.1 h2
  obtain ⟨e0, e1⟩ := IntOp.andi_eq_one.1 h3
  exact ⟨all_finite x0 _ _ _ _ _ e0, all_finite x1 _ _ _ _ _ e1, all_finite x2 _ _ _ _ _ e2⟩

end Cert.PreFin

end
-- ==== Proof.Bridge.lean ====
/- The two idealized programs end with the same result: the reference's result, read entry by entry, is the reference-side
   formula of the linear layer of the aggregated features; the kernel's is the kernel-side formula of the same linear layer;
   over finite inputs the linear layer is finite and the two formulas agree (the variance as mean of squares minus squared
   mean is the mean of squared deviations, and multiplying by the reciprocal square root is dividing by the square root). -/
import proofs.«108163_j46162308497632_1_alg».proof.Proof.KI.KVal
import proofs.«108163_j46162308497632_1_alg».proof.Proof.RefVal
import proofs.«108163_j46162308497632_1_alg».proof.Proof.PreFin
import proofs.«108163_j46162308497632_1_alg».proof.Proof.HAgg
import proofs.«108163_j46162308497632_1_alg».proof.Proof.Spec
import proofs.«108163_j46162308497632_1_alg».proof.Proof.Gen.Pre_finite_inputs
import proofs.«108163_j46162308497632_1_alg».proof.Proof.Gen.ReferenceIdeal
import proofs.«108163_j46162308497632_1_alg».proof.Defs

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

/-- Under the precondition the linear layer of the launch arguments has finite entries. -/
theorem lin_finite_of_pre (m : (ℓ : Loc nD τ sig) → Buf (Elt Ideal) ℓ)
    (hpre : Cert.Pre_KernelIdeal (hPre_finite_inputs := Cert.Pre_finite_inputs.Gen.facts) m) (c : Dev nD) :
    Cert.Spec.Finite2 (linK m c) := by
  obtain ⟨h0, h1, h2⟩ := @Cert.PreFin.finite_of_pre Cert.Pre_finite_inputs.Gen.facts _ _ _ _ _ _ _ (hpre c)
  refine Cert.Spec.lin_finite _ _ _ ?_ ?_ ?_
  · intro i k
    exact Cert.HAgg.hagg_finite _ _ _ h0 (ix2 i k)
  · intro j k
    exact h1 (ix2 j k)
  · intro j
    exact h2 (ix1 j)

/-- The reference's result from a memory agreeing on the arguments is the kernel's result. -/
theorem ref_eq_kernel (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.ValueP.res_main_v54 m' c = (dat1 (T5 m) c).arrAt 6 cfg1.N := by
  rw [Cert.ReferenceIdeal.ReadP.val_main_v54_eq, h0, h1, h2, h3, h4, h5, h6]
  funext idx
  obtain ⟨i, j, rfl⟩ : ∃ (i : Fin 50000) (j : Fin 128), idx = ix2 i j := ⟨idx 0, idx 1, eq_ix2 idx⟩
  refine (Cert.RefValue.ref_value _ _ _ _ _ _ _ i j).trans ?_
  refine Eq.trans ?_ (kernel_value m c i j).symm
  exact (congrFun (congrFun (Cert.Spec.kOut_eq_rOut (linK m c) (lin_finite_of_pre m hpre c) (gaK m c) (beK m c) (fK m c)) i) j).symm

end Cert.Bridge

end
-- ==== Proof.lean ====
/- The certificate: a graph-convolution layer's node update (mean aggregation over in-neighbours on the host, then a
   linear layer with running batch statistics and a normalise / rectify / residual step as two pipelined kernels)
   against its plain reference.
   Frames: @main of either kernel program is six items (three host stretches, the statistics kernel, a host stretch, the
   normalising kernel); each kernel region is entered with its arrays read off the buffers' contents and left with its
   outputs at what its write-backs leave, and no item writes an argument. The reference is host operations only.
   Value: the statistics kernel leaves the linear layer, its column sums and its column sums of squares; the host
   arithmetic makes the mean and the variance as mean of squares minus squared mean; the second kernel normalises by the
   reciprocal square root. The reference takes the variance as the mean of squared deviations and divides by the square
   root. Over finite inputs every entry of the linear layer is finite, and there the two agree. -/
import proofs.«108163_j46162308497632_1_alg».proof.Defs
import proofs.«108163_j46162308497632_1_alg».proof.Proof.Gen.Kernel
import proofs.«108163_j46162308497632_1_alg».proof.Proof.Gen.KernelIdeal
import proofs.«108163_j46162308497632_1_alg».proof.Proof.Gen.ReferenceIdeal
import proofs.«108163_j46162308497632_1_alg».proof.Proof.Gen.Pre_finite_inputs
import proofs.«108163_j46162308497632_1_alg».proof.Proof.K.Run
import proofs.«108163_j46162308497632_1_alg».proof.Proof.KI.Run
import proofs.«108163_j46162308497632_1_alg».proof.Proof.RefRun
import proofs.«108163_j46162308497632_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  trivial,
  fun m g m' g' hpre hagree =>
    ⟨fun c => (Cert.KernelIdeal.Hand.dat1 (Cert.KernelIdeal.Hand.T5 m) c).arrAt 6 Cert.KernelIdeal.cfg1.N,
      Cert.KernelIdeal.Hand.run_value m g,
      (θ_run Cert.ReferenceIdeal.defs _ _).mono (fun _ h c =>
        ⟨(h c).1.trans (Cert.Bridge.ref_eq_kernel m m' hpre c (hagree c).1 (hagree c).2.1 (hagree c).2.2.1 (hagree c).2.2.2.1
            (hagree c).2.2.2.2.1 (hagree c).2.2.2.2.2.1 (hagree c).2.2.2.2.2.2), (h c).2⟩)
        (Cert.ReferenceIdeal.ValueP.run (F := Ideal) m' g')⟩⟩

end Cert.Proof

end
